-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32 : Shape := ⟨1, ![32]⟩
abbrev S10x1024x256 : Shape := ⟨3, ![10, 1024, 256]⟩
abbrev S10x256 : Shape := ⟨2, ![10, 256]⟩
abbrev S10x256x1024 : Shape := ⟨3, ![10, 256, 1024]⟩
abbrev S10x1024 : Shape := ⟨2, ![10, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S10x1024x256 : S_.BroadcastsInDim S10x1024x256 (![] : Fin 0 → Fin S10x1024x256.rank)
  reducesTo_S10x1024x256_S_d0_1_2 : S10x1024x256.ReducesTo [0, 1, 2] S_
  bcast_S_S10x256 : S_.BroadcastsInDim S10x256 (![] : Fin 0 → Fin S10x256.rank)
  reducesTo_S10x256_S_d0_1 : S10x256.ReducesTo [0, 1] S_
  bcast_S_S10x256x1024 : S_.BroadcastsInDim S10x256x1024 (![] : Fin 0 → Fin S10x256x1024.rank)
  reducesTo_S10x256x1024_S_d0_1_2 : S10x256x1024.ReducesTo [0, 1, 2] S_
  bcast_S_S10x1024 : S_.BroadcastsInDim S10x1024 (![] : Fin 0 → Fin S10x1024.rank)
  reducesTo_S10x1024_S_d0_1 : S10x1024.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg1 : IVec S32 32) (main_v33 : IVec S_ 1) : IVec S_ 1 :=
  let main_c_12 : IVec S_ 32 := constantI S_ 32 0#32
  let main_v34 : IVec S32 32 := broadcastInDim S32 ![] bcast_S_S32 main_c_12
  let main_v35 : IVec S32 1 := cmpi .sge main_arg1 main_v34
  let main_c_13 : IVec S_ 32 := constantI S_ 32 10#32
  let main_v36 : IVec S32 32 := broadcastInDim S32 ![] bcast_S_S32 main_c_13
  let main_v37 : IVec S32 1 := cmpi .slt main_arg1 main_v36
  let main_v38 : IVec S32 1 := andi main_v35 main_v37
  let main_c_14 : IVec S_ 1 := constantI S_ 1 1#1
  let main_v39 : IVec S_ 1 := (fun x v => Host.reduce IntOp.andi x v reducesTo_S32_S_d0 h_S_) main_v38 main_c_14
  let main_v40 : IVec S_ 1 := andi main_v33 main_v39
  main_v40

def fn_part1 {F : FTy → Type} [FloatOps F] (main_arg1 : IVec S32 32) (main_arg5 : FVec F S10x1024 .f32) (main_arg6 : FVec F S10x1024 .f32) (main_arg7 : FVec F S10x1024 .f32) (main_v13 : IVec S_ 1) (main_v16 : IVec S10x256x1024 1) : IVec S_ 1 :=
  let main_c_5 : IVec S_ 1 := constantI S_ 1 1#1
  let main_v17 : IVec S_ 1 := (fun x v => Host.reduce IntOp.andi x v reducesTo_S10x256x1024_S_d0_1_2 h_S_) main_v16 main_c_5
  let main_v18 : IVec S_ 1 := andi main_v13 main_v17
  let main_v19 : FVec F S10x1024 .f32 := Host.absf main_arg5
  let main_cst_6 : FVec F S_ .f32 := constant S_ .f32 0x7F800000#32
  let main_v20 : FVec F S10x1024 .f32 := broadcastInDim S10x1024 ![] bcast_S_S10x1024 main_cst_6
  let main_v21 : IVec S10x1024 1 := cmpf .olt main_v19 main_v20
  let main_c_7 : IVec S_ 1 := constantI S_ 1 1#1
  let main_v22 : IVec S_ 1 := (fun x v => Host.reduce IntOp.andi x v reducesTo_S10x1024_S_d0_1 h_S_) main_v21 main_c_7
  let main_v23 : IVec S_ 1 := andi main_v18 main_v22
  let main_v24 : FVec F S10x1024 .f32 := Host.absf main_arg6
  let main_cst_8 : FVec F S_ .f32 := constant S_ .f32 0x7F800000#32
  let main_v25 : FVec F S10x1024 .f32 := broadcastInDim S10x1024 ![] bcast_S_S10x1024 main_cst_8
  let main_v26 : IVec S10x1024 1 := cmpf .olt main_v24 main_v25
  let main_c_9 : IVec S_ 1 := constantI S_ 1 1#1
  let main_v27 : IVec S_ 1 := (fun x v => Host.reduce IntOp.andi x v reducesTo_S10x1024_S_d0_1 h_S_) main_v26 main_c_9
  let main_v28 : IVec S_ 1 := andi main_v23 main_v27
  let main_v29 : FVec F S10x1024 .f32 := Host.absf main_arg7
  let main_cst_10 : FVec F S_ .f32 := constant S_ .f32 0x7F800000#32
  let main_v30 : FVec F S10x1024 .f32 := broadcastInDim S10x1024 ![] bcast_S_S10x1024 main_cst_10
  let main_v31 : IVec S10x1024 1 := cmpf .olt main_v29 main_v30
  let main_c_11 : IVec S_ 1 := constantI S_ 1 1#1
  let main_v32 : IVec S_ 1 := (fun x v => Host.reduce IntOp.andi x v reducesTo_S10x1024_S_d0_1 h_S_) main_v31 main_c_11
  let main_v33 : IVec S_ 1 := andi main_v28 main_v32
  fn_part2 (F := F) main_arg1 main_v33

def fn {F : FTy → Type} [FloatOps F] (main_arg0 : FVec F S32x2048x1024 .f32) (main_arg1 : IVec S32 32) (main_arg2 : FVec F S10x1024x256 .f32) (main_arg3 : FVec F S10x256 .f32) (main_arg4 : FVec F S10x256x1024 .f32) (main_arg5 : FVec F S10x1024 .f32) (main_arg6 : FVec F S10x1024 .f32) (main_arg7 : FVec F S10x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S10x1024x256 .f32 := Host.absf main_arg2
  let main_cst_0 : FVec F S_ .f32 := constant S_ .f32 0x7F800000#32
  let main_v5 : FVec F S10x1024x256 .f32 := broadcastInDim S10x1024x256 ![] bcast_S_S10x1024x256 main_cst_0
  let main_v6 : IVec S10x1024x256 1 := cmpf .olt main_v4 main_v5
  let main_c_1 : IVec S_ 1 := constantI S_ 1 1#1
  let main_v7 : IVec S_ 1 := (fun x v => Host.reduce IntOp.andi x v reducesTo_S10x1024x256_S_d0_1_2 h_S_) main_v6 main_c_1
  let main_v8 : IVec S_ 1 := andi main_v3 main_v7
  let main_v9 : FVec F S10x256 .f32 := Host.absf main_arg3
  let main_cst_2 : FVec F S_ .f32 := constant S_ .f32 0x7F800000#32
  let main_v10 : FVec F S10x256 .f32 := broadcastInDim S10x256 ![] bcast_S_S10x256 main_cst_2
  let main_v11 : IVec S10x256 1 := cmpf .olt main_v9 main_v10
  let main_c_3 : IVec S_ 1 := constantI S_ 1 1#1
  let main_v12 : IVec S_ 1 := (fun x v => Host.reduce IntOp.andi x v reducesTo_S10x256_S_d0_1 h_S_) main_v11 main_c_3
  let main_v13 : IVec S_ 1 := andi main_v8 main_v12
  let main_v14 : FVec F S10x256x1024 .f32 := Host.absf main_arg4
  let main_cst_4 : FVec F S_ .f32 := constant S_ .f32 0x7F800000#32
  let main_v15 : FVec F S10x256x1024 .f32 := broadcastInDim S10x256x1024 ![] bcast_S_S10x256x1024 main_cst_4
  let main_v16 : IVec S10x256x1024 1 := cmpf .olt main_v14 main_v15
  fn_part1 (F := F) main_arg1 main_arg5 main_arg6 main_arg7 main_v13 main_v16
-- ==== Kernel.lean ====
abbrev S32x2048x1024 : Shape := ⟨3, ![32, 2048, 1024]⟩
abbrev S32 : Shape := ⟨1, ![32]⟩
abbrev S10x1024x256 : Shape := ⟨3, ![10, 1024, 256]⟩
abbrev S10x256 : Shape := ⟨2, ![10, 256]⟩
abbrev S10x256x1024 : Shape := ⟨3, ![10, 256, 1024]⟩
abbrev S10x1024 : Shape := ⟨2, ![10, 1024]⟩
abbrev S_ : Shape := ⟨0, ![]⟩
abbrev S10x1x256 : Shape := ⟨3, ![10, 1, 256]⟩
abbrev S10x1x1024 : Shape := ⟨3, ![10, 1, 1024]⟩
abbrev S1x1024x1024 : Shape := ⟨3, ![1, 1024, 1024]⟩
abbrev S1x1024x256 : Shape := ⟨3, ![1, 1024, 256]⟩
abbrev S1 : Shape := ⟨1, ![1]⟩
abbrev S1x256x1024 : Shape := ⟨3, ![1, 256, 1024]⟩
abbrev S1x1x256 : Shape := ⟨3, ![1, 1, 256]⟩
abbrev S1x1x1024 : Shape := ⟨3, ![1, 1, 1024]⟩
abbrev S1024x1024 : Shape := ⟨2, ![1024, 1024]⟩
abbrev S1024x256 : Shape := ⟨2, ![1024, 256]⟩
abbrev S256x1024 : Shape := ⟨2, ![256, 1024]⟩
abbrev S1x256 : Shape := ⟨2, ![1, 256]⟩
abbrev S1x1024 : Shape := ⟨2, ![1, 1024]⟩
abbrev S1024 : Shape := ⟨1, ![1024]⟩
abbrev S1024x1 : Shape := ⟨2, ![1024, 1]⟩

abbrev nBuf : Space → Nat
  | .hbm => 22
  | .vmem => 16
  | .smem => 1
  | _ => 0

abbrev bufTy : (tb : Table) → Fin (tcTables nBuf tb) → BufTy
  | .hbm, ⟨0, _⟩ => ⟨S32x2048x1024, .f32⟩
  | .hbm, ⟨1, _⟩ => ⟨S32, .i32⟩
  | .hbm, ⟨2, _⟩ => ⟨S10x1024x256, .f32⟩
  | .hbm, ⟨3, _⟩ => ⟨S10x256, .f32⟩
  | .hbm, ⟨4, _⟩ => ⟨S10x256x1024, .f32⟩
  | .hbm, ⟨5, _⟩ => ⟨S10x1024, .f32⟩
  | .hbm, ⟨6, _⟩ => ⟨S10x1024, .f32⟩
  | .hbm, ⟨7, _⟩ => ⟨S10x1024, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S10x1024x256, .bf16⟩
  | .hbm, ⟨16, _⟩ => ⟨S10x256x1024, .bf16⟩
  | .hbm, ⟨17, _⟩ => ⟨S10x1x256, .f32⟩
  | .hbm, ⟨18, _⟩ => ⟨S10x1x1024, .f32⟩
  | .hbm, ⟨19, _⟩ => ⟨S10x1x1024, .f32⟩
  | .hbm, ⟨20, _⟩ => ⟨S10x1x1024, .f32⟩
  | .hbm, ⟨21, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1x256, .f32⟩
  | .local _ .vmem, ⟨7, _⟩ => ⟨S1x1x256, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x1024, .f32⟩
  | .local _ .vmem, ⟨15, _⟩ => ⟨S1x1024x1024, .f32⟩
  | .local _ .smem, ⟨0, _⟩ => ⟨S32, .i32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S32 : S_.BroadcastsInDim S32 (![] : Fin 0 → Fin S32.rank)
  bitsLt_bf16_f32 : FTy.bits .bf16 < FTy.bits .f32
  shapeCasts_S10x256_S10x1x256 : S10x256.ShapeCasts S10x1x256
  shapeCasts_S10x1024_S10x1x1024 : S10x1024.ShapeCasts S10x1x1024
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x256_S1024x256 : S1x256.Broadcasts S1024x256
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x2048x1024.size a
  hwx0_0 : ∀ i : grid0.Coords, EltTy.bits .f32 = 32 ∨ (Rect.block (s := S32x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S32x2048x1024.size a
  hwx0_7 : ∀ i : grid0.Coords, EltTy.bits .f32 = 32 ∨ (Rect.block (s := S32x2048x1024) S1x1024x1024.size (cc0_transform_7 i) (hinb0_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_v1) S1x1024x256.size reads0_1 false false 2 stage0_1 sem0_1 nbuf0_1 hstage0_1

abbrev spec0_2 : Pipeline.WinSpec sig grid0.rank :=
  Pipeline.WinSpec.ofSpec (Memref.whole main_v2) S1x256x1024.size reads0_2 false false 2 stage0_2 sem0_2 nbuf0_2 hstage0_2

abbrev spec0_3 : Pipeline.WinSpec sig grid0.rank :=
  Pipeline.WinSpec.ofSpec (Memref.whole main_v3) S1x1x256.size reads0_3 false false 2 stage0_3 sem0_3 nbuf0_3 hstage0_3

abbrev spec0_4 : Pipeline.WinSpec sig grid0.rank :=
  Pipeline.WinSpec.ofSpec (Memref.whole main_v4) S1x1x1024.size reads0_4 false false 2 stage0_4 sem0_4 nbuf0_4 hstage0_4

abbrev spec0_5 : Pipeline.WinSpec sig grid0.rank :=
  Pipeline.WinSpec.ofSpec (Memref.whole main_v5) S1x1x1024.size reads0_5 false false 2 stage0_5 sem0_5 nbuf0_5 hstage0_5

abbrev spec0_6 : Pipeline.WinSpec sig grid0.rank :=
  Pipeline.WinSpec.ofSpec (Memref.whole main_v6) S1x1x1024.size reads0_6 false false 2 stage0_6 sem0_6 nbuf0_6 hstage0_6

abbrev spec0_7 : Pipeline.WinSpec sig grid0.rank :=
  Pipeline.WinSpec.ofSpec (Memref.whole main_v7) S1x1024x1024.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 pf | 6 => hreads0_6 pf | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x256.size a ≤ S10x1024x256.size a), EltTy.bits .bf16 = 32 ∨ (Rect.block (s := S10x1024x256) S1x1024x256.size (cc0_transform_1 k0_off1_inb numel1_S1 pf i) h).WholeWords (EltTy.packing .bf16)) ∧
  (∀ i : grid0.Coords, ∃ h : (∀ a, (cc0_transform_2 k0_off1_inb numel1_S1 pf i a + 1) * S1x256x1024.size a ≤ S10x256x1024.size a), EltTy.bits .bf16 = 32 ∨ (Rect.block (s := S10x256x1024) S1x256x1024.size (cc0_transform_2 k0_off1_inb numel1_S1 pf i) h).WholeWords (EltTy.packing .bf16)) ∧
  (∀ i : grid0.Coords, ∃ h : (∀ a, (cc0_transform_3 k0_off1_inb numel1_S1 pf i a + 1) * S1x1x256.size a ≤ S10x1x256.size a), EltTy.bits .f32 = 32 ∨ (Rect.block (s := S10x1x256) S1x1x256.size (cc0_transform_3 k0_off1_inb numel1_S1 pf i) h).WholeWords (EltTy.packing .f32)) ∧
  (∀ i : grid0.Coords, ∃ h : (∀ a, (cc0_transform_4 k0_off1_inb numel1_S1 pf i a + 1) * S1x1x1024.size a ≤ S10x1x1024.size a), EltTy.bits .f32 = 32 ∨ (Rect.block (s := S10x1x1024) S1x1x1024.size (cc0_transform_4 k0_off1_inb numel1_S1 pf i) h).WholeWords (EltTy.packing .f32)) ∧
  (∀ i : grid0.Coords, ∃ h : (∀ a, (cc0_transform_5 k0_off1_inb numel1_S1 pf i a + 1) * S1x1x1024.size a ≤ S10x1x1024.size a), EltTy.bits .f32 = 32 ∨ (Rect.block (s := S10x1x1024) S1x1x1024.size (cc0_transform_5 k0_off1_inb numel1_S1 pf i) h).WholeWords (EltTy.packing .f32)) ∧
  (∀ i : grid0.Coords, ∃ h : (∀ a, (cc0_transform_6 k0_off1_inb numel1_S1 pf i a + 1) * S1x1x1024.size a ≤ S10x1x1024.size a), EltTy.bits .f32 = 32 ∨ (Rect.block (s := S10x1x1024) S1x1x1024.size (cc0_transform_6 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2.1 i).elim fun h _ => h a | 5 => fun i a => (hok.2.2.2.2.1 i).elim fun h _ => h a | 6 => fun i a => (hok.2.2.2.2.2 i).elim fun h _ => h a | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2.1 i).elim fun _ h => h | 5 => fun i => (hok.2.2.2.2.1 i).elim fun _ h => h | 6 => fun i => (hok.2.2.2.2.2 i).elim fun _ h => h | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S32x2048x1024 : Shape := ⟨3, ![32, 2048, 1024]⟩
abbrev S32 : Shape := ⟨1, ![32]⟩
abbrev S10x1024x256 : Shape := ⟨3, ![10, 1024, 256]⟩
abbrev S10x256 : Shape := ⟨2, ![10, 256]⟩
abbrev S10x256x1024 : Shape := ⟨3, ![10, 256, 1024]⟩
abbrev S10x1024 : Shape := ⟨2, ![10, 1024]⟩
abbrev S_ : Shape := ⟨0, ![]⟩
abbrev S32x1 : Shape := ⟨2, ![32, 1]⟩
abbrev S32x1024x256 : Shape := ⟨3, ![32, 1024, 256]⟩
abbrev S32x256x1024 : Shape := ⟨3, ![32, 256, 1024]⟩
abbrev S32x2048x256 : Shape := ⟨3, ![32, 2048, 256]⟩
abbrev S32x256 : Shape := ⟨2, ![32, 256]⟩
abbrev S32x1x256 : Shape := ⟨3, ![32, 1, 256]⟩
abbrev S32x1024 : Shape := ⟨2, ![32, 1024]⟩
abbrev S32x1x1024 : Shape := ⟨3, ![32, 1, 1024]⟩
abbrev S32x2048 : Shape := ⟨2, ![32, 2048]⟩
abbrev S32x2048x1 : Shape := ⟨3, ![32, 2048, 1]⟩

abbrev nBuf : Space → Nat
  | .hbm => 103
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32, .i32⟩
  | .hbm, ⟨2, _⟩ => ⟨S10x1024x256, .f32⟩
  | .hbm, ⟨3, _⟩ => ⟨S10x256, .f32⟩
  | .hbm, ⟨4, _⟩ => ⟨S10x256x1024, .f32⟩
  | .hbm, ⟨5, _⟩ => ⟨S10x1024, .f32⟩
  | .hbm, ⟨6, _⟩ => ⟨S10x1024, .f32⟩
  | .hbm, ⟨7, _⟩ => ⟨S10x1024, .f32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S32x1024x256, .f32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S32, .i32⟩
  | .hbm, ⟨24, _⟩ => ⟨S32x1, .i32⟩
  | .hbm, ⟨25, _⟩ => ⟨S32x256x1024, .f32⟩
  | .hbm, ⟨26, _⟩ => ⟨S32x2048x256, .f32⟩
  | .hbm, ⟨27, _⟩ => ⟨S_, .i32⟩
  | .hbm, ⟨28, _⟩ => ⟨S32, .i32⟩
  | .hbm, ⟨29, _⟩ => ⟨S32, .i1⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S32x1, .i32⟩
  | .hbm, ⟨35, _⟩ => ⟨S32x256, .f32⟩
  | .hbm, ⟨36, _⟩ => ⟨S32x1x256, .f32⟩
  | .hbm, ⟨37, _⟩ => ⟨S32x2048x256, .f32⟩
  | .hbm, ⟨38, _⟩ => ⟨S32x2048x256, .f32⟩
  | .hbm, ⟨39, _⟩ => ⟨S_, .f32⟩
  | .hbm, ⟨40, _⟩ => ⟨S32x2048x256, .f32⟩
  | .hbm, ⟨41, _⟩ => ⟨S32x2048x256, .f32⟩
  | .hbm, ⟨42, _⟩ => ⟨S32x2048x1024, .f32⟩
  | .hbm, ⟨43, _⟩ => ⟨S_, .i32⟩
  | .hbm, ⟨44, _⟩ => ⟨S32, .i32⟩
  | .hbm, ⟨45, _⟩ => ⟨S32, .i1⟩
  | .hbm, ⟨46, _⟩ => ⟨S_, .i32⟩
  | .hbm, ⟨47, _⟩ => ⟨S32, .i32⟩
  | .hbm, ⟨48, _⟩ => ⟨S32, .i32⟩
  | .hbm, ⟨49, _⟩ => ⟨S32, .i32⟩
  | .hbm, ⟨50, _⟩ => ⟨S32x1, .i32⟩
  | .hbm, ⟨51, _⟩ => ⟨S32x1024, .f32⟩
  | .hbm, ⟨52, _⟩ => ⟨S32x1x1024, .f32⟩
  | .hbm, ⟨53, _⟩ => ⟨S32x2048x1024, .f32⟩
  | .hbm, ⟨54, _⟩ => ⟨S32x2048x1024, .f32⟩
  | .hbm, ⟨55, _⟩ => ⟨S32x2048x1024, .f32⟩
  | .hbm, ⟨56, _⟩ => ⟨S_, .f32⟩
  | .hbm, ⟨57, _⟩ => ⟨S32x2048, .f32⟩
  | .hbm, ⟨58, _⟩ => ⟨S32x2048x1, .f32⟩
  | .hbm, ⟨59, _⟩ => ⟨S_, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S32x2048x1024, .f32⟩
  | .hbm, ⟨65, _⟩ => ⟨S_, .f32⟩
  | .hbm, ⟨66, _⟩ => ⟨S32x2048, .f32⟩
  | .hbm, ⟨67, _⟩ => ⟨S32x2048x1, .f32⟩
  | .hbm, ⟨68, _⟩ => ⟨S_, .f32⟩
  | .hbm, ⟨69, _⟩ => ⟨S32x2048x1, .f32⟩
  | .hbm, ⟨70, _⟩ => ⟨S32x2048x1, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048x1, .f32⟩
  | .hbm, ⟨75, _⟩ => ⟨S32x2048x1, .f32⟩
  | .hbm, ⟨76, _⟩ => ⟨S32x2048x1, .f32⟩
  | .hbm, ⟨77, _⟩ => ⟨S32x2048x1024, .f32⟩
  | .hbm, ⟨78, _⟩ => ⟨S32x2048x1024, .f32⟩
  | .hbm, ⟨79, _⟩ => ⟨S_, .i32⟩
  | .hbm, ⟨80, _⟩ => ⟨S32, .i32⟩
  | .hbm, ⟨81, _⟩ => ⟨S32, .i1⟩
  | .hbm, ⟨82, _⟩ => ⟨S_, .i32⟩
  | .hbm, ⟨83, _⟩ => ⟨S32, .i32⟩
  | .hbm, ⟨84, _⟩ => ⟨S32, .i32⟩
  | .hbm, ⟨85, _⟩ => ⟨S32, .i32⟩
  | .hbm, ⟨86, _⟩ => ⟨S32x1, .i32⟩
  | .hbm, ⟨87, _⟩ => ⟨S32x1024, .f32⟩
  | .hbm, ⟨88, _⟩ => ⟨S32x1x1024, .f32⟩
  | .hbm, ⟨89, _⟩ => ⟨S32x2048x1024, .f32⟩
  | .hbm, ⟨90, _⟩ => ⟨S32x2048x1024, .f32⟩
  | .hbm, ⟨91, _⟩ => ⟨S_, .i32⟩
  | .hbm, ⟨92, _⟩ => ⟨S32, .i32⟩
  | .hbm, ⟨93, _⟩ => ⟨S32, .i1⟩
  | .hbm, ⟨94, _⟩ => ⟨S_, .i32⟩
  | .hbm, ⟨95, _⟩ => ⟨S32, .i32⟩
  | .hbm, ⟨96, _⟩ => ⟨S32, .i32⟩
  | .hbm, ⟨97, _⟩ => ⟨S32, .i32⟩
  | .hbm, ⟨98, _⟩ => ⟨S32x1, .i32⟩
  | .hbm, ⟨99, _⟩ => ⟨S32x1024, .f32⟩
  | .hbm, ⟨100, _⟩ => ⟨S32x1x1024, .f32⟩
  | .hbm, ⟨101, _⟩ => ⟨S32x2048x1024, .f32⟩
  | .hbm, ⟨102, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x256_S32x1x256_0_2 : S32x256.BroadcastsInDim S32x1x256 (![0, 2] : Fin 2 → Fin S32x1x256.rank)
  bcast_S32x1x256_S32x2048x256_0_1_2 : S32x1x256.BroadcastsInDim S32x2048x256 (![0, 1, 2] : Fin 3 → Fin S32x2048x256.rank)
  bcast_S_S32x2048x256 : S_.BroadcastsInDim S32x2048x256 (![] : Fin 0 → Fin S32x2048x256.rank)
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  reducesTo_S32x2048x1024_S32x2048_d2 : S32x2048x1024.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x1024_0_1_2 : S32x2048x1.BroadcastsInDim S32x2048x1024 (![0, 1, 2] : Fin 3 → Fin S32x2048x1024.rank)
  gather_S10x1024x256_S32x1_S32x1024x256_12_0_n_n_0_1_11024256_wf : GatherDims.WF S10x1024x256 S32x1 S32x1024x256 [1, 2] [0] [] [0] [] 1 ![1, 1024, 256]
  gather_S10x256x1024_S32x1_S32x256x1024_12_0_n_n_0_1_12561024_wf : GatherDims.WF S10x256x1024 S32x1 S32x256x1024 [1, 2] [0] [] [0] [] 1 ![1, 256, 1024]
  dot_S32x2048x1024_S32x1024x256_S32x2048x256_2_1_1_2_0_0_wf : DotDims.WF S32x2048x1024 S32x1024x256 S32x2048x256 [2] [1] [1] [2] [0] [0]
  gather_S10x256_S32x1_S32x256_1_0_n_n_0_1_1256_wf : GatherDims.WF S10x256 S32x1 S32x256 [1] [0] [] [0] [] 1 ![1, 256]
  dot_S32x2048x256_S32x256x1024_S32x2048x1024_2_1_1_2_0_0_wf : DotDims.WF S32x2048x256 S32x256x1024 S32x2048x1024 [2] [1] [1] [2] [0] [0]
  gather_S10x1024_S32x1_S32x1024_1_0_n_n_0_1_11024_wf : GatherDims.WF S10x1024 S32x1 S32x1024 [1] [0] [] [0] [] 1 ![1, 1024]

variable [Facts₀]

def gather_S10x1024x256_S32x1_S32x1024x256_12_0_n_n_0_1_11024256 : GatherDims S10x1024x256 S32x1 S32x1024x256 where
  offsetDims := [1, 2]
  collapsedSliceDims := [0]
  operandBatchingDims := []
  startIndicesBatchingDims := []
  startIndexMap := [0]
  indexVectorDim := 1
  sliceSizes := ![1, 1024, 256]
  wf := gather_S10x1024x256_S32x1_S32x1024x256_12_0_n_n_0_1_11024256_wf
def gather_S10x256x1024_S32x1_S32x256x1024_12_0_n_n_0_1_12561024 : GatherDims S10x256x1024 S32x1 S32x256x1024 where
  offsetDims := [1, 2]
  collapsedSliceDims := [0]
  operandBatchingDims := []
  startIndicesBatchingDims := []
  startIndexMap := [0]
  indexVectorDim := 1
  sliceSizes := ![1, 256, 1024]
  wf := gather_S10x256x1024_S32x1_S32x256x1024_12_0_n_n_0_1_12561024_wf
def dot_S32x2048x1024_S32x1024x256_S32x2048x256_2_1_1_2_0_0 : DotDims S32x2048x1024 S32x1024x256 S32x2048x256 where
  lhsContracting := [2]
  rhsContracting := [1]
  lhsNonContracting := [1]
  rhsNonContracting := [2]
  lhsBatch := [0]
  rhsBatch := [0]
  wf := dot_S32x2048x1024_S32x1024x256_S32x2048x256_2_1_1_2_0_0_wf
def gather_S10x256_S32x1_S32x256_1_0_n_n_0_1_1256 : GatherDims S10x256 S32x1 S32x256 where
  offsetDims := [1]
  collapsedSliceDims := [0]
  operandBatchingDims := []
  startIndicesBatchingDims := []
  startIndexMap := [0]
  indexVectorDim := 1
  sliceSizes := ![1, 256]
  wf := gather_S10x256_S32x1_S32x256_1_0_n_n_0_1_1256_wf
def dot_S32x2048x256_S32x256x1024_S32x2048x1024_2_1_1_2_0_0 : DotDims S32x2048x256 S32x256x1024 S32x2048x1024 where
  lhsContracting := [2]
  rhsContracting := [1]
  lhsNonContracting := [1]
  rhsNonContracting := [2]
  lhsBatch := [0]
  rhsBatch := [0]
  wf := dot_S32x2048x256_S32x256x1024_S32x2048x1024_2_1_1_2_0_0_wf
def gather_S10x1024_S32x1_S32x1024_1_0_n_n_0_1_11024 : GatherDims S10x1024 S32x1 S32x1024 where
  offsetDims := [1]
  collapsedSliceDims := [0]
  operandBatchingDims := []
  startIndicesBatchingDims := []
  startIndexMap := [0]
  indexVectorDim := 1
  sliceSizes := ![1, 1024]
  wf := gather_S10x1024_S32x1_S32x1024_1_0_n_n_0_1_11024_wf

class Facts : Prop extends Facts₀ where

variable [Facts]
-- ==== Proof.Spec.lean ====
/-
  The mathematics both programs compute, stated once over plain functions of coordinates.

  A row x of 1024 hidden values passes through a bottleneck: 256 hidden units, unit a being
  max (Σ_k x_k · w1_{k,a} + c1_a, 0), then back to 1024 values Σ_a hid_a · w2_{a,j} + c2_j, added to x_j
  (the residual row). The residual row is then normalised over its 1024 entries and scaled by g, shifted by bt.

  The two programs normalise differently:
    * one pass:  mean = (Σ y)·2⁻¹⁰,  var = (Σ y²)·2⁻¹⁰ − mean²;
    * two passes: mean = (Σ y)/1024,  var = (Σ (y − mean)²)/1024.
  Over the extended reals these agree when every y_k is a real number (lnK_eq_lnR): dividing by 1024 is
  multiplying by 2⁻¹⁰ on every extended real, and Σ (y − μ)² = Σ y² − 1024·μ² when μ = (Σ y)/1024.
  The residual row is real when the inputs are (resid_real): sums, products and maxima of reals are reals.
-/
import Idealize.ShloMosaic.PureOps.Ideal.Laws
import Idealize.ShloMosaic.Lib.ValueIdx

noncomputable section

open scoped BigOperators

namespace Cert.Adapter

open Idealize.ShloMosaic Idealize.ShloMosaic.ValueIdx

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ k, IsReal (f k)) : IsReal (∑ k ∈ s, f k) := by
  classical
  induction s using Finset.induction_on with
  | empty => exact ⟨0, by simp⟩
  | insert a s ha ih => rw [Finset.sum_insert ha]; exact (h a).add ih

/-- A finite sum of coerced reals is the coerced sum. -/
theorem coe_sum {ι : Type} (s : Finset ι) (r : ι → ℝ) : (∑ k ∈ s, ((r k : ℝ) : EReal)) = ((∑ k ∈ s, r k : ℝ) : EReal) := by
  classical
  induction s using Finset.induction_on with
  | empty => simp
  | insert a s ha ih => rw [Finset.sum_insert ha, Finset.sum_insert ha, ih, EReal.coe_add]

/-- The word +0.0 is the real 0. -/
theorem zeroW_real : IsReal (Ideal.ofBits .f32 0x00000000#32) := ⟨0, by rw [Ideal.ofBits_zero_f32]; rfl⟩

/-- The word 0x3A800000 is 2⁻¹⁰ = 1/1024. -/
theorem invN_eq : Ideal.ofBits .f32 0x3A800000#32 = ((1 / 1024 : ℝ) : EReal) := by
  simp [Ideal.ofBits, Ideal.ieee, -EReal.coe_mul]; norm_num

/-- The word 0x44800000 is 1024. -/
theorem nW_eq : Ideal.ofBits .f32 0x44800000#32 = ((1024 : ℝ) : EReal) := by
  simp [Ideal.ofBits, Ideal.ieee, -EReal.coe_mul]; norm_num

/-! ## The bottleneck and the residual row -/

/-- Hidden unit a of the bottleneck on the row x. -/
def hidUnit (x : Fin 1024 → EReal) (w1 : Fin 1024 → Fin 256 → EReal) (c1 : Fin 256 → EReal) (a : Fin 256) : EReal :=
  max ((∑ k : Fin 1024, x k * w1 k a) + c1 a) (Ideal.ofBits .f32 0x00000000#32)

/-- Entry j of the residual row: the row plus the bottleneck's output. -/
def resid (x : Fin 1024 → EReal) (w1 : Fin 1024 → Fin 256 → EReal) (c1 : Fin 256 → EReal)
    (w2 : Fin 256 → Fin 1024 → EReal) (c2 : Fin 1024 → EReal) (j : Fin 1024) : EReal :=
  x j + ((∑ a : Fin 256, hidUnit x w1 c1 a * w2 a j) + c2 j)

theorem hidUnit_real {x : Fin 1024 → EReal} {w1 : Fin 1024 → Fin 256 → EReal} {c1 : Fin 256 → EReal}
    (hx : ∀ k, IsReal (x k)) (hw1 : ∀ k a, IsReal (w1 k a)) (hc1 : ∀ a, IsReal (c1 a)) (a : Fin 256) :
    IsReal (hidUnit x w1 c1 a) :=
  (((IsReal.sum _ _ fun k => (hx k).mul (hw1 k a)).add (hc1 a))).max zeroW_real

theorem resid_real {x : Fin 1024 → EReal} {w1 : Fin 1024 → Fin 256 → EReal} {c1 : Fin 256 → EReal}
    {w2 : Fin 256 → Fin 1024 → EReal} {c2 : Fin 1024 → EReal}
    (hx : ∀ k, IsReal (x k)) (hw1 : ∀ k a, IsReal (w1 k a)) (hc1 : ∀ a, IsReal (c1 a))
    (hw2 : ∀ a j, IsReal (w2 a j)) (hc2 : ∀ j, IsReal (c2 j)) (j : Fin 1024) :
    IsReal (resid x w1 c1 w2 c2 j) :=
  (hx j).add ((IsReal.sum _ _ fun a => (hidUnit_real hx hw1 hc1 a).mul (hw2 a j)).add (hc2 j))

/-! ## The two normalisations of a row -/

/-- One pass: mean and mean of squares by the factor 2⁻¹⁰, variance as their difference. -/
def lnK (y g bt : Fin 1024 → EReal) (j : Fin 1024) : EReal :=
  ((y j - (∑ k : Fin 1024, y k) * Ideal.ofBits .f32 0x3A800000#32)
      * Ideal.rsqrt ((((∑ k : Fin 1024, y k * y k) * Ideal.ofBits .f32 0x3A800000#32)
          - ((∑ k : Fin 1024, y k) * Ideal.ofBits .f32 0x3A800000#32) * ((∑ k : Fin 1024, y k) * Ideal.ofBits .f32 0x3A800000#32))
        + Ideal.ofBits .f32 0x3727C5AC#32))
    * g j + bt j

/-- Two passes: mean by the quotient by 1024, variance as the mean of squared deviations. -/
def lnR (y g bt : Fin 1024 → EReal) (j : Fin 1024) : EReal :=
  ((y j - Ideal.div (Ideal.ofBits .f32 0x00000000#32 + ∑ k : Fin 1024, y k) (Ideal.ofBits .f32 0x44800000#32))
      * Ideal.rsqrt (Ideal.div (Ideal.ofBits .f32 0x00000000#32 + ∑ k : Fin 1024,
            (y k - Ideal.div (Ideal.ofBits .f32 0x00000000#32 + ∑ k : Fin 1024, y k) (Ideal.ofBits .f32 0x44800000#32))
              * (y k - Ideal.div (Ideal.ofBits .f32 0x00000000#32 + ∑ k : Fin 1024, y k) (Ideal.ofBits .f32 0x44800000#32)))
          (Ideal.ofBits .f32 0x44800000#32)
        + Ideal.ofBits .f32 0x3727C5AC#32))
    * g j + bt j

/-- The variance identity over the reals, for 1024 terms. -/
theorem real_var (r : Fin 1024 → ℝ) :
    (∑ k, r k * r k) * (1 / 1024) - ((∑ k, r k) * (1 / 1024)) * ((∑ k, r k) * (1 / 1024))
      = (∑ k, (r k - (∑ k, r k) * (1 / 1024)) * (r k - (∑ k, r k) * (1 / 1024))) * (1 / 1024) := by
  have h : ∀ m : ℝ, ∑ k, (r k - m) * (r k - m) = (∑ k, r k * r k) - 2 * m * (∑ k, r k) + 1024 * (m * m) := by
    intro m
    have : ∀ k, (r k - m) * (r k - m) = r k * r k - 2 * m * r k + m * m := fun k => by ring
    simp only [this, Finset.sum_add_distrib, Finset.sum_sub_distrib, ← Finset.mul_sum, Finset.sum_const,
      Finset.card_univ, Fintype.card_fin, nsmul_eq_mul]
    ring
  rw [h]
  generalize (∑ k, r k) = S
  generalize (∑ k, r k * r k) = Q
  ring

/-- On a row of reals the two normalisations agree. -/
theorem lnK_eq_lnR (y g bt : Fin 1024 → EReal) (hy : ∀ k, IsReal (y k)) : lnK y g bt = lnR y g bt := by
  funext j
  choose r hr using hy
  have hy' : y = fun k => ((r k : ℝ) : EReal) := funext hr
  subst hy'
  unfold lnK lnR
  have hmean : Ideal.div (Ideal.ofBits .f32 0x00000000#32 + ∑ k : Fin 1024, ((r k : ℝ) : EReal)) (Ideal.ofBits .f32 0x44800000#32)
      = (∑ k : Fin 1024, ((r k : ℝ) : EReal)) * Ideal.ofBits .f32 0x3A800000#32 := by
    rw [Ideal.ofBits_zero_f32, zero_add, nW_eq, invN_eq, Ideal.div_coe (by norm_num : (1024 : ℝ) ≠ 0)]
  rw [hmean]
  have hvar : Ideal.div (Ideal.ofBits .f32 0x00000000#32 + ∑ k : Fin 1024,
        (((r k : ℝ) : EReal) - (∑ k : Fin 1024, ((r k : ℝ) : EReal)) * Ideal.ofBits .f32 0x3A800000#32)
          * (((r k : ℝ) : EReal) - (∑ k : Fin 1024, ((r k : ℝ) : EReal)) * Ideal.ofBits .f32 0x3A800000#32))
        (Ideal.ofBits .f32 0x44800000#32)
      = ((∑ k : Fin 1024, ((r k : ℝ) : EReal) * ((r k : ℝ) : EReal)) * Ideal.ofBits .f32 0x3A800000#32)
          - ((∑ k : Fin 1024, ((r k : ℝ) : EReal)) * Ideal.ofBits .f32 0x3A800000#32)
            * ((∑ k : Fin 1024, ((r k : ℝ) : EReal)) * Ideal.ofBits .f32 0x3A800000#32) := by
    rw [Ideal.ofBits_zero_f32, zero_add, nW_eq, invN_eq, Ideal.div_coe (by norm_num : (1024 : ℝ) ≠ 0)]
    simp only [coe_sum, ← EReal.coe_mul, ← EReal.coe_sub]
    rw [real_var]
  rw [hvar]

/-! ## The whole array

Sample b uses the parameters of language L b throughout: both weight matrices, both biases, the scale and the shift. -/

/-- The language a table of 32 words names for sample b (a word past the last language names the last one). -/
def langOf (t : (⟨1, ![32]⟩ : Shape).Idx → BitVec 32) (b : Fin 32) : Fin 10 := ⟨min (t (ix1 b)).toNat 9, by omega⟩

theorem langOf_val (t : (⟨1, ![32]⟩ : Shape).Idx → BitVec 32) (b : Fin 32) (h : (t (ix1 b)).toNat < 10) :
    (langOf t b).val = (t (ix1 b)).toNat := by
  show min (t (ix1 b)).toNat 9 = _; omega

/-- The coordinates of a rank-3 index are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

section Whole
variable (ln : (Fin 1024 → EReal) → (Fin 1024 → EReal) → (Fin 1024 → EReal) → Fin 1024 → EReal)
  (X : (⟨3, ![32, 2048, 1024]⟩ : Shape).Idx → EReal) (L : Fin 32 → Fin 10)
  (W1 : (⟨3, ![10, 1024, 256]⟩ : Shape).Idx → EReal) (c1 : (⟨2, ![10, 256]⟩ : Shape).Idx → EReal)
  (W2 : (⟨3, ![10, 256, 1024]⟩ : Shape).Idx → EReal) (c2 g bt : (⟨2, ![10, 1024]⟩ : Shape).Idx → EReal)

/-- The residual row of sample b at position s. -/
def residRow (b : Fin 32) (s : Fin 2048) : Fin 1024 → EReal :=
  resid (fun k => X (ix3 b s k)) (fun k a => W1 (ix3 (L b) k a)) (fun a => c1 (ix2 (L b) a))
    (fun a j => W2 (ix3 (L b) a j)) (fun j => c2 (ix2 (L b) j))

/-- The result at (b, s, j): the residual row normalised by ln, scaled and shifted by language L b's vectors. -/
def outAt (b : Fin 32) (s : Fin 2048) (j : Fin 1024) : EReal :=
  ln (residRow X L W1 c1 W2 c2 b s) (fun j => g (ix2 (L b) j)) (fun j => bt (ix2 (L b) j)) j

/-- The result as an array. -/
def outArr : (⟨3, ![32, 2048, 1024]⟩ : Shape).Idx → EReal := fun i =>
  outAt ln X L W1 c1 W2 c2 g bt ⟨(i 0).val, idx3_lt0 i⟩ ⟨(i 1).val, idx3_lt1 i⟩ ⟨(i 2).val, idx3_lt2 i⟩

end Whole

/-- With real inputs the residual rows are real, so the one-pass and the two-pass normalisation give one array. -/
theorem outArr_lnK_eq_lnR (X : (⟨3, ![32, 2048, 1024]⟩ : Shape).Idx → EReal) (L : Fin 32 → Fin 10)
    (W1 : (⟨3, ![10, 1024, 256]⟩ : Shape).Idx → EReal) (c1 : (⟨2, ![10, 256]⟩ : Shape).Idx → EReal)
    (W2 : (⟨3, ![10, 256, 1024]⟩ : Shape).Idx → EReal) (c2 g bt : (⟨2, ![10, 1024]⟩ : Shape).Idx → EReal)
    (hX : ∀ i, IsReal (X i)) (hW1 : ∀ i, IsReal (W1 i)) (hc1 : ∀ i, IsReal (c1 i)) (hW2 : ∀ i, IsReal (W2 i))
    (hc2 : ∀ i, IsReal (c2 i)) :
    outArr lnK X L W1 c1 W2 c2 g bt = outArr lnR X L W1 c1 W2 c2 g bt := by
  funext i
  unfold outArr outAt
  exact congrFun (lnK_eq_lnR _ _ _ fun k => resid_real (fun _ => hX _) (fun _ _ => hW1 _) (fun _ => hc1 _) (fun _ _ => hW2 _) (fun _ => hc2 _) k) _

end Cert.Adapter

end
-- ==== Proof.PreFacts.lean ====
/-
  What the precondition says, entry by entry: every id lies in [0, 10) (the last conjunct: 0 ≤ id and id < 10, signed,
  at every position), and every entry of the seven float arrays is a real number (|x| < +∞ at every position).
-/
import proofs.«407231_j15006615733345_3_alg».proof.Pre_finite_inputs
import proofs.«407231_j15006615733345_3_alg».proof.Proof.Spec
import Idealize.ShloMosaic.Lib.ReduceAll
import Idealize.ShloMosaic.Lib.StableHlo.Predicate

noncomputable section

namespace Cert.Adapter.PreFacts

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- A signed word that is at least 0 and below 10 is below 10 as an unsigned word. -/
theorem word_lt (w : BitVec 32) (h0 : IntOp.cmpi .sge w 0#32 = 1#1) (h1 : IntOp.cmpi .slt w 10#32 = 1#1) :
    w.toNat < 10 := by
  unfold IntOp.cmpi at h0 h1
  rw [StableHlo.Predicate.ofBool_eq_one_iff] at h0 h1
  change (0#32 : BitVec 32).sle w = true at h0
  change w.slt 10#32 = true at h1
  have h32 := w.isLt
  have hm : w.msb = false := by
    by_contra hc
    have hc' : w.msb = true := by simpa using hc
    have : w.toInt < 0 := by rw [BitVec.toInt_eq_msb_cond, hc']; simp; omega
    simp only [BitVec.sle, decide_eq_true_eq] at h0
    have h00 : (0#32 : BitVec 32).toInt = 0 := by decide
    omega
  have hlt : w.toNat < 2 ^ 31 := by
    have := BitVec.msb_eq_false_iff_two_mul_lt.mp hm
    omega
  have := (StableHlo.Predicate.slt_bool_iff_toNat (a := w) (b := 10#32) hlt (by decide)).1 (by rw [h1]; rfl)
  simpa using this

/-- An extended real whose absolute value is below +∞ (the word 0x7F800000) is a real number. -/
theorem real_of_abs_lt (x : EReal)
    (h : Ideal.cmp .olt (max x (-x)) (Ideal.ofBits .f32 0x7F800000#32) = 1#1) : Cert.Adapter.IsReal x := by
  have htop : Ideal.ofBits .f32 0x7F800000#32 = ⊤ := by simp [Ideal.ofBits, Ideal.ieee]
  rw [htop] at h
  unfold Ideal.cmp at h
  rw [StableHlo.Predicate.ofBool_eq_one_iff] at h
  simp only [decide_eq_true_eq] at h
  induction x using EReal.rec with
  | bot => simp at h
  | coe r => exact ⟨r, rfl⟩
  | top => simp at h

/-- An all-reduction by "and" of the entrywise test |x| < +∞ that came out 1: every entry of x is a real number. -/
theorem real_of_all {s : Shape} {axes : List (Fin s.rank)} (x : FVec Ideal s .f32) (dims : Fin S_.rank → Fin s.rank)
    (hb : S_.BroadcastsInDim s dims) (hr : s.ReducesTo axes S_) (hu : 0 < S_.numel) (init : IVec S_ 1) (j : S_.Idx)
    (h : Host.reduce IntOp.andi
        (cmpf .olt (Host.absf x) (broadcastInDim s dims hb (constant (F := Ideal) S_ .f32 0x7F800000#32))) init hr hu j = 1#1)
    (i : s.Idx) : Cert.Adapter.IsReal (x i) :=
  real_of_abs_lt (x i) (Host.reduce_andi_all _ init hr hu j h i)

/-- An all-reduction by "and" of the entrywise test 0 ≤ w ∧ w < 10 (signed) that came out 1: every word is below 10. -/
theorem lt_of_all {n : Nat} {axes : List (Fin (⟨1, ![n]⟩ : Shape).rank)} (ids : IVec ⟨1, ![n]⟩ 32)
    (dims : Fin S_.rank → Fin (⟨1, ![n]⟩ : Shape).rank)
    (hb : S_.BroadcastsInDim ⟨1, ![n]⟩ dims) (hr : (⟨1, ![n]⟩ : Shape).ReducesTo axes S_) (hu : 0 < S_.numel)
    (init : IVec S_ 1) (j : S_.Idx)
    (h : Host.reduce IntOp.andi
        (andi (cmpi .sge ids (broadcastInDim ⟨1, ![n]⟩ dims hb (constantI S_ 32 0#32)))
          (cmpi .slt ids (broadcastInDim ⟨1, ![n]⟩ dims hb (constantI S_ 32 10#32)))) init hr hu j = 1#1)
    (i : (⟨1, ![n]⟩ : Shape).Idx) : (ids i).toNat < 10 := by
  have e := IntOp.andi_eq_one.1 (Host.reduce_andi_all _ init hr hu j h i)
  exact word_lt (ids i) e.1 e.2

/-- Both operands of an "and" of two i1 scalars that is 1 are 1. -/
theorem and_split {x y : IVec S_ 1} {j : S_.Idx} (h : andi x y j = 1#1) : x j = 1#1 ∧ y j = 1#1 :=
  IntOp.andi_eq_one.1 h

/-- Under the precondition every id is below 10 as an unsigned word (so also non-negative as a signed one). -/
theorem ids_lt {F : FTy → Type} [FloatOps F] (a0 : FVec F S32x2048x1024 .f32) (ids : IVec S32 32)
    (a2 : FVec F S10x1024x256 .f32) (a3 : FVec F S10x256 .f32) (a4 : FVec F S10x256x1024 .f32)
    (a5 a6 a7 : FVec F S10x1024 .f32)
    (h : Cert.Pre_finite_inputs.fn (F := F) a0 ids a2 a3 a4 a5 a6 a7 = fun _ => 1#1) (b : Fin 32) :
    (ids (ix1 b)).toNat < 10 := by
  have e := congrFun h ix0
  dsimp only [fn, fn_part1, fn_part2] at e
  exact lt_of_all ids _ _ _ _ _ _ (and_split e).2 (ix1 b)

/-- Under the precondition, at the ideal instance, every entry of every float argument is a real number. -/
theorem reals (a0 : FVec Ideal S32x2048x1024 .f32) (ids : IVec S32 32)
    (a2 : FVec Ideal S10x1024x256 .f32) (a3 : FVec Ideal S10x256 .f32) (a4 : FVec Ideal S10x256x1024 .f32)
    (a5 a6 a7 : FVec Ideal S10x1024 .f32)
    (h : Cert.Pre_finite_inputs.fn (F := Ideal) a0 ids a2 a3 a4 a5 a6 a7 = fun _ => 1#1) :
    (∀ i, Cert.Adapter.IsReal (a0 i)) ∧ (∀ i, Cert.Adapter.IsReal (a2 i)) ∧ (∀ i, Cert.Adapter.IsReal (a3 i))
      ∧ (∀ i, Cert.Adapter.IsReal (a4 i)) ∧ (∀ i, Cert.Adapter.IsReal (a5 i)) ∧ (∀ i, Cert.Adapter.IsReal (a6 i))
      ∧ (∀ i, Cert.Adapter.IsReal (a7 i)) := by
  have e := congrFun h ix0
  dsimp only [fn, fn_part1, fn_part2] at e
  obtain ⟨e, -⟩ := and_split e
  obtain ⟨e, h7⟩ := and_split e
  obtain ⟨e, h6⟩ := and_split e
  obtain ⟨e, h5⟩ := and_split e
  obtain ⟨e, h4⟩ := and_split e
  obtain ⟨e, h3⟩ := and_split e
  obtain ⟨h0, h2⟩ := and_split e
  exact ⟨real_of_all a0 _ _ _ _ _ _ h0, real_of_all a2 _ _ _ _ _ _ h2, real_of_all a3 _ _ _ _ _ _ h3,
    real_of_all a4 _ _ _ _ _ _ h4, real_of_all a5 _ _ _ _ _ _ h5, real_of_all a6 _ _ _ _ _ _ h6,
    real_of_all a7 _ _ _ _ _ _ h7⟩

end Cert.Adapter.PreFacts

end
-- ==== Proof.OkKernel.lean ====
/-
  The prefetched table is the ids clamped to [0, 9]; with every id already in [0, 10) the clamp is the identity, so
  the table is the ids, and every table-indexed block (one language's matrix or vector out of ten) lies inside its array.
-/
import proofs.«407231_j15006615733345_3_alg».proof.Proof.Gen.Kernel.Frame
import Idealize.ShloMosaic.Lib.ValueIdx
import Idealize.ShloMosaic.Lib.StableHlo.Predicate

set_option maxRecDepth 16384

noncomputable section

namespace Cert.Kernel.OkOfPre

open Cert.Kernel Cert.Kernel.Gen Idealize.ShloMosaic Idealize.ShloMosaic.TcCoe Idealize.SL.Sem
open Idealize.ShloMosaic.ValueIdx

variable {F : FTy → Type} [FloatOps F] (m : (ℓ : Loc nD τ sig) → Buf (Elt F) ℓ)

/-- A word already in [0, 10) is left alone by the clamp to [0, 9]: min 9 (max 0 w) = w, signed. -/
theorem clip_word (w : BitVec 32) (hw : w.toNat < 10) : IntOp.minsi 9#32 (IntOp.maxsi 0#32 w) = w := by
  have hti : w.toInt = w.toNat := StableHlo.Predicate.toInt_eq_toNat_of_lt (by omega)
  have h0 : (0#32 : BitVec 32).toInt = 0 := by decide
  have h9 : (9#32 : BitVec 32).toInt = 9 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h9, decide_eq_true_eq]
  omega

/-- The table the region is entered with is the clamp of the ids to [0, 9], entry by entry. -/
theorem tbl_eq : (Gen.tbl m 0 : S32.Idx → BitVec 32)
    = minsi (broadcastInDim S32 ![] bcast_S_S32 (constantI S_ 32 9#32))
        (maxsi (broadcastInDim S32 ![] bcast_S_S32 (constantI S_ 32 0#32))
          (m (((0 : Dev nD) : Thread nD τ).loc main_arg1))) := by
  unfold Gen.tbl
  show Gen.V m 0 main_v0 = _
  dsimp only [Gen.V]
  simp only [Gen.hostOps0, Gen.hostOps0_1, Gen.hostOps0_2, List.flatten_cons, List.flatten_nil, List.append_nil,
    List.cons_append, List.nil_append]
  after_results
  rfl

/-- In range, the table the region is entered with holds the ids themselves. -/
theorem tbl_apply (hr : ∀ b : Fin 32, (m (((0 : Dev nD) : Thread nD τ).loc main_arg1) (ix1 b)).toNat < 10) (b : Fin 32) :
    Gen.tbl m 0 (ix1 b) = m (((0 : Dev nD) : Thread nD τ).loc main_arg1) (ix1 b) := by
  have e := congrFun (tbl_eq m) (ix1 b)
  exact e.trans (clip_word _ (hr b))

/-- A grid point's first coordinate is below 32. -/
theorem lt32 (i : grid0.Coords) : (i 0).val < 32 := (i 0).isLt

/-- The word an index map loads from the table at a grid point is the table's entry at the point's first coordinate. -/
theorem word_at (pf : pre0.Contents (Elt F)) (i : grid0.Coords)
    (hinb : ∀ a, (![(Scalar.indexCast (BitVec.ofNat 32 (i 0).val)).toNat] : Fin 1 → Nat) a + S1.size a ≤ S32.size a)
    (h1 : S1.numel = 1) :
    (pf.at 0 (Rect.unit (s := S32) ![(Scalar.indexCast (BitVec.ofNat 32 (i 0).val)).toNat] S1.size hinb) h1 : BitVec 32)
      = pf 0 (ix1 ⟨(i 0).val, lt32 i⟩) := by
  show pf 0 _ = pf 0 _
  congr 1
  funext a
  apply Fin.ext
  obtain ⟨v, hv⟩ := a
  have hv1 : v < 1 := hv
  obtain rfl : v = 0 := by omega
  show (BitVec.ofNat 32 (i 0).val).toNat + 1 * 0 = (i 0).val
  have := lt32 i
  rw [BitVec.toNat_ofNat]
  omega

/-- A block of one language's slice (extent 1 on the first axis, the whole of the other two) at block index (t, 0, 0)
    with t < 10 lies inside the ten-language array, and takes every row of its slab: its transfer ends on whole words. -/
theorem blk_ok (n1 n2 p : Nat) (P : Prop) (T : Fin 3 → Nat) (h0 : T 0 < 10) (h1 : T 1 = 0) (h2 : T 2 = 0) :
    ∃ h : (∀ a, (T a + 1) * (⟨3, ![1, n1, n2]⟩ : Shape).size a ≤ (⟨3, ![10, n1, n2]⟩ : Shape).size a),
      P ∨ (Rect.block (s := ⟨3, ![10, n1, n2]⟩) (⟨3, ![1, n1, n2]⟩ : Shape).size T h).WholeWords p := by
  have h : ∀ a, (T a + 1) * (⟨3, ![1, n1, n2]⟩ : Shape).size a ≤ (⟨3, ![10, n1, n2]⟩ : Shape).size a := by
    intro a
    match a with
    | ⟨0, _⟩ => show (T 0 + 1) * 1 ≤ 10; omega
    | ⟨1, _⟩ => show (T 1 + 1) * n1 ≤ n1; rw [h1, Nat.zero_add, Nat.one_mul]
    | ⟨2, _⟩ => show (T 2 + 1) * n2 ≤ n2; rw [h2, Nat.zero_add, Nat.one_mul]
  refine ⟨h, Or.inr (Or.inr ⟨(by show 2 ≤ 3; omega), rfl, ?_, rfl⟩)⟩
  show T 1 * n1 = 0
  rw [h1, Nat.zero_mul]

/-- Each table-reading index map, at any contents of the table: the table's word, then 0, 0. -/
theorem tr1 (hinb : ∀ i : grid0.Coords, ∀ a, (k0_off1 i) a + S1.size a ≤ S32.size a) (h1 : S1.numel = 1)
    (pf : pre0.Contents (Elt F)) (i : grid0.Coords) :
    cc0_transform_1 hinb h1 pf i 0 = (pf 0 (ix1 ⟨(i 0).val, lt32 i⟩) : BitVec 32).toNat
      ∧ cc0_transform_1 hinb h1 pf i 1 = 0 ∧ cc0_transform_1 hinb h1 pf i 2 = 0 :=
  ⟨congrArg BitVec.toNat (word_at pf i (hinb i) h1), rfl, rfl⟩
theorem tr2 (hinb : ∀ i : grid0.Coords, ∀ a, (k0_off1 i) a + S1.size a ≤ S32.size a) (h1 : S1.numel = 1)
    (pf : pre0.Contents (Elt F)) (i : grid0.Coords) :
    cc0_transform_2 hinb h1 pf i 0 = (pf 0 (ix1 ⟨(i 0).val, lt32 i⟩) : BitVec 32).toNat
      ∧ cc0_transform_2 hinb h1 pf i 1 = 0 ∧ cc0_transform_2 hinb h1 pf i 2 = 0 :=
  ⟨congrArg BitVec.toNat (word_at pf i (hinb i) h1), rfl, rfl⟩
theorem tr3 (hinb : ∀ i : grid0.Coords, ∀ a, (k0_off1 i) a + S1.size a ≤ S32.size a) (h1 : S1.numel = 1)
    (pf : pre0.Contents (Elt F)) (i : grid0.Coords) :
    cc0_transform_3 hinb h1 pf i 0 = (pf 0 (ix1 ⟨(i 0).val, lt32 i⟩) : BitVec 32).toNat
      ∧ cc0_transform_3 hinb h1 pf i 1 = 0 ∧ cc0_transform_3 hinb h1 pf i 2 = 0 :=
  ⟨congrArg BitVec.toNat (word_at pf i (hinb i) h1), rfl, rfl⟩
theorem tr4 (hinb : ∀ i : grid0.Coords, ∀ a, (k0_off1 i) a + S1.size a ≤ S32.size a) (h1 : S1.numel = 1)
    (pf : pre0.Contents (Elt F)) (i : grid0.Coords) :
    cc0_transform_4 hinb h1 pf i 0 = (pf 0 (ix1 ⟨(i 0).val, lt32 i⟩) : BitVec 32).toNat
      ∧ cc0_transform_4 hinb h1 pf i 1 = 0 ∧ cc0_transform_4 hinb h1 pf i 2 = 0 :=
  ⟨congrArg BitVec.toNat (word_at pf i (hinb i) h1), rfl, rfl⟩
theorem tr5 (hinb : ∀ i : grid0.Coords, ∀ a, (k0_off1 i) a + S1.size a ≤ S32.size a) (h1 : S1.numel = 1)
    (pf : pre0.Contents (Elt F)) (i : grid0.Coords) :
    cc0_transform_5 hinb h1 pf i 0 = (pf 0 (ix1 ⟨(i 0).val, lt32 i⟩) : BitVec 32).toNat
      ∧ cc0_transform_5 hinb h1 pf i 1 = 0 ∧ cc0_transform_5 hinb h1 pf i 2 = 0 :=
  ⟨congrArg BitVec.toNat (word_at pf i (hinb i) h1), rfl, rfl⟩
theorem tr6 (hinb : ∀ i : grid0.Coords, ∀ a, (k0_off1 i) a + S1.size a ≤ S32.size a) (h1 : S1.numel = 1)
    (pf : pre0.Contents (Elt F)) (i : grid0.Coords) :
    cc0_transform_6 hinb h1 pf i 0 = (pf 0 (ix1 ⟨(i 0).val, lt32 i⟩) : BitVec 32).toNat
      ∧ cc0_transform_6 hinb h1 pf i 1 = 0 ∧ cc0_transform_6 hinb h1 pf i 2 = 0 :=
  ⟨congrArg BitVec.toNat (word_at pf i (hinb i) h1), rfl, rfl⟩

/-- Any contents of the table whose 32 words are all below 10 meet the pipeline's side condition. -/
theorem ok_of_lt (pf : pre0.Contents (Elt F)) (hlt : ∀ b : Fin 32, (pf 0 (ix1 b) : BitVec 32).toNat < 10) : ok0 pf := by
  unfold ok0
  refine ⟨fun i => ?_, fun i => ?_, fun i => ?_, fun i => ?_, fun i => ?_, fun i => ?_⟩
  · obtain ⟨e0, e1, e2⟩ := tr1 Facts₀.k0_off1_inb Facts₀.numel1_S1 pf i
    exact blk_ok 1024 256 _ _ _ (e0 ▸ hlt _) e1 e2
  · obtain ⟨e0, e1, e2⟩ := tr2 Facts₀.k0_off1_inb Facts₀.numel1_S1 pf i
    exact blk_ok 256 1024 _ _ _ (e0 ▸ hlt _) e1 e2
  · obtain ⟨e0, e1, e2⟩ := tr3 Facts₀.k0_off1_inb Facts₀.numel1_S1 pf i
    exact blk_ok 1 256 _ _ _ (e0 ▸ hlt _) e1 e2
  · obtain ⟨e0, e1, e2⟩ := tr4 Facts₀.k0_off1_inb Facts₀.numel1_S1 pf i
    exact blk_ok 1 1024 _ _ _ (e0 ▸ hlt _) e1 e2
  · obtain ⟨e0, e1, e2⟩ := tr5 Facts₀.k0_off1_inb Facts₀.numel1_S1 pf i
    exact blk_ok 1 1024 _ _ _ (e0 ▸ hlt _) e1 e2
  · obtain ⟨e0, e1, e2⟩ := tr6 Facts₀.k0_off1_inb Facts₀.numel1_S1 pf i
    exact blk_ok 1 1024 _ _ _ (e0 ▸ hlt _) e1 e2

/-- In range, the pipeline's side condition on the table holds. -/
theorem ok_of_range (hr : ∀ b : Fin 32, (m (((0 : Dev nD) : Thread nD τ).loc main_arg1) (ix1 b)).toNat < 10) : Gen.Ok m := by
  exact ok_of_lt (Gen.tbl m) fun b => (tbl_apply m hr b).symm ▸ hr b

end Cert.Kernel.OkOfPre

end
-- ==== Proof.OkKernelIdeal.lean ====
/-
  The prefetched table is the ids clamped to [0, 9]; with every id already in [0, 10) the clamp is the identity, so
  the table is the ids, and every table-indexed block (one language's matrix or vector out of ten) lies inside its array.
-/
import proofs.«407231_j15006615733345_3_alg».proof.Proof.Gen.KernelIdeal.Frame
import Idealize.ShloMosaic.Lib.ValueIdx
import Idealize.ShloMosaic.Lib.StableHlo.Predicate

set_option maxRecDepth 16384

noncomputable section

namespace Cert.KernelIdeal.OkOfPre

open Cert.KernelIdeal Cert.KernelIdeal.Gen Idealize.ShloMosaic Idealize.ShloMosaic.TcCoe Idealize.SL.Sem
open Idealize.ShloMosaic.ValueIdx

variable {F : FTy → Type} [FloatOps F] (m : (ℓ : Loc nD τ sig) → Buf (Elt F) ℓ)

/-- A word already in [0, 10) is left alone by the clamp to [0, 9]: min 9 (max 0 w) = w, signed. -/
theorem clip_word (w : BitVec 32) (hw : w.toNat < 10) : IntOp.minsi 9#32 (IntOp.maxsi 0#32 w) = w := by
  have hti : w.toInt = w.toNat := StableHlo.Predicate.toInt_eq_toNat_of_lt (by omega)
  have h0 : (0#32 : BitVec 32).toInt = 0 := by decide
  have h9 : (9#32 : BitVec 32).toInt = 9 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h9, decide_eq_true_eq]
  omega

/-- The table the region is entered with is the clamp of the ids to [0, 9], entry by entry. -/
theorem tbl_eq : (Gen.tbl m 0 : S32.Idx → BitVec 32)
    = minsi (broadcastInDim S32 ![] bcast_S_S32 (constantI S_ 32 9#32))
        (maxsi (broadcastInDim S32 ![] bcast_S_S32 (constantI S_ 32 0#32))
          (m (((0 : Dev nD) : Thread nD τ).loc main_arg1))) := by
  unfold Gen.tbl
  show Gen.V m 0 main_v0 = _
  dsimp only [Gen.V]
  simp only [Gen.hostOps0, Gen.hostOps0_1, Gen.hostOps0_2, List.flatten_cons, List.flatten_nil, List.append_nil,
    List.cons_append, List.nil_append]
  after_results
  rfl

/-- In range, the table the region is entered with holds the ids themselves. -/
theorem tbl_apply (hr : ∀ b : Fin 32, (m (((0 : Dev nD) : Thread nD τ).loc main_arg1) (ix1 b)).toNat < 10) (b : Fin 32) :
    Gen.tbl m 0 (ix1 b) = m (((0 : Dev nD) : Thread nD τ).loc main_arg1) (ix1 b) := by
  have e := congrFun (tbl_eq m) (ix1 b)
  exact e.trans (clip_word _ (hr b))

/-- A grid point's first coordinate is below 32. -/
theorem lt32 (i : grid0.Coords) : (i 0).val < 32 := (i 0).isLt

/-- The word an index map loads from the table at a grid point is the table's entry at the point's first coordinate. -/
theorem word_at (pf : pre0.Contents (Elt F)) (i : grid0.Coords)
    (hinb : ∀ a, (![(Scalar.indexCast (BitVec.ofNat 32 (i 0).val)).toNat] : Fin 1 → Nat) a + S1.size a ≤ S32.size a)
    (h1 : S1.numel = 1) :
    (pf.at 0 (Rect.unit (s := S32) ![(Scalar.indexCast (BitVec.ofNat 32 (i 0).val)).toNat] S1.size hinb) h1 : BitVec 32)
      = pf 0 (ix1 ⟨(i 0).val, lt32 i⟩) := by
  show pf 0 _ = pf 0 _
  congr 1
  funext a
  apply Fin.ext
  obtain ⟨v, hv⟩ := a
  have hv1 : v < 1 := hv
  obtain rfl : v = 0 := by omega
  show (BitVec.ofNat 32 (i 0).val).toNat + 1 * 0 = (i 0).val
  have := lt32 i
  rw [BitVec.toNat_ofNat]
  omega

/-- A block of one language's slice (extent 1 on the first axis, the whole of the other two) at block index (t, 0, 0)
    with t < 10 lies inside the ten-language array, and takes every row of its slab: its transfer ends on whole words. -/
theorem blk_ok (n1 n2 p : Nat) (P : Prop) (T : Fin 3 → Nat) (h0 : T 0 < 10) (h1 : T 1 = 0) (h2 : T 2 = 0) :
    ∃ h : (∀ a, (T a + 1) * (⟨3, ![1, n1, n2]⟩ : Shape).size a ≤ (⟨3, ![10, n1, n2]⟩ : Shape).size a),
      P ∨ (Rect.block (s := ⟨3, ![10, n1, n2]⟩) (⟨3, ![1, n1, n2]⟩ : Shape).size T h).WholeWords p := by
  have h : ∀ a, (T a + 1) * (⟨3, ![1, n1, n2]⟩ : Shape).size a ≤ (⟨3, ![10, n1, n2]⟩ : Shape).size a := by
    intro a
    match a with
    | ⟨0, _⟩ => show (T 0 + 1) * 1 ≤ 10; omega
    | ⟨1, _⟩ => show (T 1 + 1) * n1 ≤ n1; rw [h1, Nat.zero_add, Nat.one_mul]
    | ⟨2, _⟩ => show (T 2 + 1) * n2 ≤ n2; rw [h2, Nat.zero_add, Nat.one_mul]
  refine ⟨h, Or.inr (Or.inr ⟨(by show 2 ≤ 3; omega), rfl, ?_, rfl⟩)⟩
  show T 1 * n1 = 0
  rw [h1, Nat.zero_mul]

/-- Each table-reading index map, at any contents of the table: the table's word, then 0, 0. -/
theorem tr1 (hinb : ∀ i : grid0.Coords, ∀ a, (k0_off1 i) a + S1.size a ≤ S32.size a) (h1 : S1.numel = 1)
    (pf : pre0.Contents (Elt F)) (i : grid0.Coords) :
    cc0_transform_1 hinb h1 pf i 0 = (pf 0 (ix1 ⟨(i 0).val, lt32 i⟩) : BitVec 32).toNat
      ∧ cc0_transform_1 hinb h1 pf i 1 = 0 ∧ cc0_transform_1 hinb h1 pf i 2 = 0 :=
  ⟨congrArg BitVec.toNat (word_at pf i (hinb i) h1), rfl, rfl⟩
theorem tr2 (hinb : ∀ i : grid0.Coords, ∀ a, (k0_off1 i) a + S1.size a ≤ S32.size a) (h1 : S1.numel = 1)
    (pf : pre0.Contents (Elt F)) (i : grid0.Coords) :
    cc0_transform_2 hinb h1 pf i 0 = (pf 0 (ix1 ⟨(i 0).val, lt32 i⟩) : BitVec 32).toNat
      ∧ cc0_transform_2 hinb h1 pf i 1 = 0 ∧ cc0_transform_2 hinb h1 pf i 2 = 0 :=
  ⟨congrArg BitVec.toNat (word_at pf i (hinb i) h1), rfl, rfl⟩
theorem tr3 (hinb : ∀ i : grid0.Coords, ∀ a, (k0_off1 i) a + S1.size a ≤ S32.size a) (h1 : S1.numel = 1)
    (pf : pre0.Contents (Elt F)) (i : grid0.Coords) :
    cc0_transform_3 hinb h1 pf i 0 = (pf 0 (ix1 ⟨(i 0).val, lt32 i⟩) : BitVec 32).toNat
      ∧ cc0_transform_3 hinb h1 pf i 1 = 0 ∧ cc0_transform_3 hinb h1 pf i 2 = 0 :=
  ⟨congrArg BitVec.toNat (word_at pf i (hinb i) h1), rfl, rfl⟩
theorem tr4 (hinb : ∀ i : grid0.Coords, ∀ a, (k0_off1 i) a + S1.size a ≤ S32.size a) (h1 : S1.numel = 1)
    (pf : pre0.Contents (Elt F)) (i : grid0.Coords) :
    cc0_transform_4 hinb h1 pf i 0 = (pf 0 (ix1 ⟨(i 0).val, lt32 i⟩) : BitVec 32).toNat
      ∧ cc0_transform_4 hinb h1 pf i 1 = 0 ∧ cc0_transform_4 hinb h1 pf i 2 = 0 :=
  ⟨congrArg BitVec.toNat (word_at pf i (hinb i) h1), rfl, rfl⟩
theorem tr5 (hinb : ∀ i : grid0.Coords, ∀ a, (k0_off1 i) a + S1.size a ≤ S32.size a) (h1 : S1.numel = 1)
    (pf : pre0.Contents (Elt F)) (i : grid0.Coords) :
    cc0_transform_5 hinb h1 pf i 0 = (pf 0 (ix1 ⟨(i 0).val, lt32 i⟩) : BitVec 32).toNat
      ∧ cc0_transform_5 hinb h1 pf i 1 = 0 ∧ cc0_transform_5 hinb h1 pf i 2 = 0 :=
  ⟨congrArg BitVec.toNat (word_at pf i (hinb i) h1), rfl, rfl⟩
theorem tr6 (hinb : ∀ i : grid0.Coords, ∀ a, (k0_off1 i) a + S1.size a ≤ S32.size a) (h1 : S1.numel = 1)
    (pf : pre0.Contents (Elt F)) (i : grid0.Coords) :
    cc0_transform_6 hinb h1 pf i 0 = (pf 0 (ix1 ⟨(i 0).val, lt32 i⟩) : BitVec 32).toNat
      ∧ cc0_transform_6 hinb h1 pf i 1 = 0 ∧ cc0_transform_6 hinb h1 pf i 2 = 0 :=
  ⟨congrArg BitVec.toNat (word_at pf i (hinb i) h1), rfl, rfl⟩

/-- Any contents of the table whose 32 words are all below 10 meet the pipeline's side condition. -/
theorem ok_of_lt (pf : pre0.Contents (Elt F)) (hlt : ∀ b : Fin 32, (pf 0 (ix1 b) : BitVec 32).toNat < 10) : ok0 pf := by
  unfold ok0
  refine ⟨fun i => ?_, fun i => ?_, fun i => ?_, fun i => ?_, fun i => ?_, fun i => ?_⟩
  · obtain ⟨e0, e1, e2⟩ := tr1 Facts₀.k0_off1_inb Facts₀.numel1_S1 pf i
    exact blk_ok 1024 256 _ _ _ (e0 ▸ hlt _) e1 e2
  · obtain ⟨e0, e1, e2⟩ := tr2 Facts₀.k0_off1_inb Facts₀.numel1_S1 pf i
    exact blk_ok 256 1024 _ _ _ (e0 ▸ hlt _) e1 e2
  · obtain ⟨e0, e1, e2⟩ := tr3 Facts₀.k0_off1_inb Facts₀.numel1_S1 pf i
    exact blk_ok 1 256 _ _ _ (e0 ▸ hlt _) e1 e2
  · obtain ⟨e0, e1, e2⟩ := tr4 Facts₀.k0_off1_inb Facts₀.numel1_S1 pf i
    exact blk_ok 1 1024 _ _ _ (e0 ▸ hlt _) e1 e2
  · obtain ⟨e0, e1, e2⟩ := tr5 Facts₀.k0_off1_inb Facts₀.numel1_S1 pf i
    exact blk_ok 1 1024 _ _ _ (e0 ▸ hlt _) e1 e2
  · obtain ⟨e0, e1, e2⟩ := tr6 Facts₀.k0_off1_inb Facts₀.numel1_S1 pf i
    exact blk_ok 1 1024 _ _ _ (e0 ▸ hlt _) e1 e2

/-- In range, the pipeline's side condition on the table holds. -/
theorem ok_of_range (hr : ∀ b : Fin 32, (m (((0 : Dev nD) : Thread nD τ).loc main_arg1) (ix1 b)).toNat < 10) : Gen.Ok m := by
  exact ok_of_lt (Gen.tbl m) fun b => (tbl_apply m hr b).symm ▸ hr b

end Cert.KernelIdeal.OkOfPre

end
-- ==== Proof.KPoint.lean ====
/-
  One grid point: what the body leaves in the output's staging buffer is its one covering store's value, the
  normalised residual rows computed from the seven input blocks the point reads whole.
-/
import proofs.«407231_j15006615733345_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl

/-- The body's result block as a function of the seven input blocks. -/
def pointVal (x0 : Vec F S1x1024x1024 .f32) (x1 : Vec F S1x1024x256 .bf16) (x2 : Vec F S1x256x1024 .bf16)
    (x3 : Vec F S1x1x256 .f32) (x4 : Vec F S1x1x1024 .f32) (x5 : Vec F S1x1x1024 .f32) (x6 : Vec F S1x1x1024 .f32) :
    Vec F S1x1024x1024 .f32 :=
  k0_pay1 (k0_pay2 x5) (k0_pay3 x6) (k0_pay4 x0 x1 x2 x3 x4) (k0_pay5 x0 x1 x2 x3 x4) (k0_pay6 x0 x1 x2 x3 x4) (k0_pay7 (F := F))

/-- The run's found pieces for the output, read back, are that block. -/
theorem out_A (c : Dev nD) (i : grid0.Coords) (arg3 : Memref sig .tc .vmem S1x1024x1024 .f32) (harg3 : arg3.IsWhole)
    (arg4 : Memref sig .tc .vmem S1x1024x256 .bf16) (harg4 : arg4.IsWhole) (arg5 : Memref sig .tc .vmem S1x256x1024 .bf16) (harg5 : arg5.IsWhole)
    (arg6 : Memref sig .tc .vmem S1x1x256 .f32) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S1x1x1024 .f32) (harg9 : arg9.IsWhole)
    (arg10 : Memref sig .tc .vmem S1x1024x1024 .f32) (harg10 : arg10.IsWhole)
    (x0 : Vec F S1x1024x1024 .f32) (x1 : Vec F S1x1024x256 .bf16) (x2 : Vec F S1x256x1024 .bf16) (x3 : Vec F S1x1x256 .f32)
    (x4 : Vec F S1x1x1024 .f32) (x5 : Vec F S1x1x1024 .f32) (x6 : Vec F S1x1x1024 .f32) (xt0 : TbBuf0 (F := F) c tbM0_0) :
    out0_A_7 c i arg3 harg3 arg4 harg4 arg5 harg5 arg6 harg6 arg7 harg7 arg8 harg8 arg9 harg9 arg10 harg10 x0 x1 x2 x3 x4 x5 x6 xt0
      = pointVal x0 x1 x2 x3 x4 x5 x6 := by
  unfold out0_A_7
  rw [View.read_writes_eq_canon _ _ _ (cover0_A_7 c i arg3 harg3 arg4 harg4 arg5 harg5 arg6 harg6 arg7 harg7 arg8 harg8 arg9 harg9 arg10 harg10 x0 x1 x2 x3 x4 x5 x6 xt0)]
  unfold kernelRun0_A
  dsimp only
  sl_unfold_words
  rw [View.canon_unit_zero hz3]
  unfold pointVal
  simp only [View.readAt_eq_ld, harg3.read_unread, harg4.read_unread, harg5.read_unread, harg6.read_unread, harg7.read_unread,
    harg8.read_unread, harg9.read_unread, View.ld_unit_zero (S := S1x1024x1024) hz3, View.ld_unit_zero (S := S1x1024x256) hz3,
    View.ld_unit_zero (S := S1x256x1024) hz3, View.ld_unit_zero (S := S1x1x256) hz3, View.ld_unit_zero (S := S1x1x1024) hz3]

end Cert.KernelIdeal.KValue

end
-- ==== Proof.KPay.lean ====
/-
  The body's result block read at one entry (row r, column j): the one-pass normalisation of the residual row built
  from row r of the hidden block and the point's weight, bias, scale and shift blocks. The two matrix products
  into zero accumulators are plain sums over the contracted coordinate, the two lane reductions are sums over the
  row, and the layout operations (unit axes added and dropped, row and column broadcasts) only rename coordinates.
-/
import proofs.«407231_j15006615733345_3_alg».proof.Proof.KPoint
import proofs.«407231_j15006615733345_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

namespace Pay

/-! ## Layout: the column forms -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row sum -/

/-- The sum over axis 1 of a `[1024, 1024]` block, read at row `r`, is the sum of that row's entries. -/
theorem rowSum_apply (src : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ k : Fin 1024, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-! ## The two matrix products

For each product: its two operand indices at a result index and a contraction coordinate, axis by axis (a row axis reads the
result's row, a column axis the result's column, the contracted axis the contraction coordinate); then the product into the
zero block read at a result index, as the sum over the contracted coordinate. -/

theorem lhs_mm1_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_mm1_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_mm1_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_mm1_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The first product into the zero block, read at `(r, a)`: the sum over the 1024 contracted coordinates. -/
theorem mm1_apply (lhs : FVec Ideal S1024x1024 .bf16) (rhs : FVec Ideal S1024x256 .bf16) (r : Fin 1024) (a : Fin 256) :
    matmul dot_S1024x1024_S1024x256_S1024x256_1_0_0_1_n_n none lhs rhs (constant (F := Ideal) S1024x256 .f32 0x00000000#32) (ix2 r a)
      = ∑ k : Fin 1024, lhs (ix2 r k) * rhs (ix2 k a) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r a) ((contrEquiv1 dot_S1024x1024_S1024x256_S1024x256_1_0_0_1_n_n 1024 rfl rfl).symm k) = ix2 r k := funext fun c => Fin.ext (by
    match c with
    | ⟨0, _⟩ => exact lhs_mm1_0 _ _
    | ⟨1, _⟩ => exact (lhs_mm1_1 _ _).trans hk)
  have er : dot_S1024x1024_S1024x256_S1024x256_1_0_0_1_n_n.rhsIdx (ix2 r a) ((contrEquiv1 dot_S1024x1024_S1024x256_S1024x256_1_0_0_1_n_n 1024 rfl rfl).symm k) = ix2 k a := funext fun c => Fin.ext (by
    match c with
    | ⟨0, _⟩ => exact (rhs_mm1_0 _ _).trans hk
    | ⟨1, _⟩ => exact rhs_mm1_1 _ _)
  rw [el, er]

theorem lhs_mm2_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_mm2_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_mm2_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_mm2_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The second product into the zero block, read at `(r, j)`: the sum over the 256 contracted coordinates. -/
theorem mm2_apply (lhs : FVec Ideal S1024x256 .bf16) (rhs : FVec Ideal S256x1024 .bf16) (r j : Fin 1024) :
    matmul dot_S1024x256_S256x1024_S1024x1024_1_0_0_1_n_n none lhs rhs (constant (F := Ideal) S1024x1024 .f32 0x00000000#32) (ix2 r j)
      = ∑ a : Fin 256, lhs (ix2 r a) * rhs (ix2 a j) := by
  simp only [matmul]
  rw [Ideal.matmul_constant_zero_apply, ← Equiv.sum_comp (contrEquiv1 dot_S1024x256_S256x1024_S1024x1024_1_0_0_1_n_n 256 rfl rfl).symm]
  refine Finset.sum_congr rfl fun a _ => ?_
  have hk := contrEquiv1_symm_val dot_S1024x256_S256x1024_S1024x1024_1_0_0_1_n_n 256 rfl rfl a
  have el : dot_S1024x256_S256x1024_S1024x1024_1_0_0_1_n_n.lhsIdx (ix2 r j) ((contrEquiv1 dot_S1024x256_S256x1024_S1024x1024_1_0_0_1_n_n 256 rfl rfl).symm a) = ix2 r a := funext fun c => Fin.ext (by
    match c with
    | ⟨0, _⟩ => exact lhs_mm2_0 _ _
    | ⟨1, _⟩ => exact (lhs_mm2_1 _ _).trans hk)
  have er : dot_S1024x256_S256x1024_S1024x1024_1_0_0_1_n_n.rhsIdx (ix2 r j) ((contrEquiv1 dot_S1024x256_S256x1024_S1024x1024_1_0_0_1_n_n 256 rfl rfl).symm a) = ix2 a j := funext fun c => Fin.ext (by
    match c with
    | ⟨0, _⟩ => exact (rhs_mm2_0 _ _).trans hk
    | ⟨1, _⟩ => exact rhs_mm2_1 _ _)
  rw [el, er]

/-! ## The residual rows, their row sums, and the normalisation, each at one entry -/

/-- Entry (r, j) of the residual rows. -/
theorem pay4_apply (x0 : Vec Ideal S1x1024x1024 .f32) (x1 : Vec Ideal S1x1024x256 .bf16) (x2 : Vec Ideal S1x256x1024 .bf16)
    (x3 : Vec Ideal S1x1x256 .f32) (x4 : Vec Ideal S1x1x1024 .f32) (r j : Fin 1024) :
    k0_pay4 (F := Ideal) x0 x1 x2 x3 x4 (ix2 r j)
      = Cert.Adapter.resid (fun k => x0 (ix3 (0 : Fin 1) r k)) (fun k a => x1 (ix3 (0 : Fin 1) k a))
          (fun a => x3 (ix3 (0 : Fin 1) (0 : Fin 1) a)) (fun a j => x2 (ix3 (0 : Fin 1) a j))
          (fun j => x4 (ix3 (0 : Fin 1) (0 : Fin 1) j)) j := by
  unfold k0_pay4 Cert.Adapter.resid
  refine congrArg₂ (· + ·) (shapeCast_1ab_ab_apply x0 _ r j) (congrArg₂ (· + ·) ?_ ?_)
  · refine (mm2_apply _ _ r j).trans (Finset.sum_congr rfl fun a _ => congrArg₂ (· * ·) ?_ (shapeCast_1ab_ab_apply x2 _ a j))
    unfold Cert.Adapter.hidUnit
    refine congrArg₂ max (congrArg₂ (· + ·) ?_ ?_) rfl
    · exact (mm1_apply _ _ r a).trans (Finset.sum_congr rfl fun k _ =>
        congrArg₂ (· * ·) (shapeCast_1ab_ab_apply x0 _ r k) (shapeCast_1ab_ab_apply x1 _ k a))
    · exact (broadcastTo_1b_ab_apply _ _ r a).trans (shapeCast_1ab_ab_apply x3 _ 0 a)
  · exact (broadcastTo_1b_ab_apply _ _ r j).trans (shapeCast_1ab_ab_apply x4 _ 0 j)

/-- Entry (r, 0) of the column of row sums. -/
theorem pay5_apply (x0 : Vec Ideal S1x1024x1024 .f32) (x1 : Vec Ideal S1x1024x256 .bf16) (x2 : Vec Ideal S1x256x1024 .bf16)
    (x3 : Vec Ideal S1x1x256 .f32) (x4 : Vec Ideal S1x1x1024 .f32) (r : Fin 1024) (u : Fin 1) :
    k0_pay5 (F := Ideal) x0 x1 x2 x3 x4 (ix2 r u) = ∑ k : Fin 1024, k0_pay4 (F := Ideal) x0 x1 x2 x3 x4 (ix2 r k) := by
  unfold k0_pay5
  exact (shapeCast_a_a1_apply _ _ r u).trans (rowSum_apply _ _ _ _ r)

/-- Entry (r, 0) of the column of row sums of squares. -/
theorem pay6_apply (x0 : Vec Ideal S1x1024x1024 .f32) (x1 : Vec Ideal S1x1024x256 .bf16) (x2 : Vec Ideal S1x256x1024 .bf16)
    (x3 : Vec Ideal S1x1x256 .f32) (x4 : Vec Ideal S1x1x1024 .f32) (r : Fin 1024) (u : Fin 1) :
    k0_pay6 (F := Ideal) x0 x1 x2 x3 x4 (ix2 r u)
      = ∑ k : Fin 1024, k0_pay4 (F := Ideal) x0 x1 x2 x3 x4 (ix2 r k) * k0_pay4 (F := Ideal) x0 x1 x2 x3 x4 (ix2 r k) := by
  unfold k0_pay6
  exact ((shapeCast_a_a1_apply _ _ r u).trans (rowSum_apply _ _ _ _ r)).trans (Finset.sum_congr rfl fun k _ => rfl)

/-- Entry (0, r, j) of the normalised block, from the entries of its six operands it reads. -/
theorem pay1_apply (v11 v13 : FVec Ideal S1x1024 .f32) (v24 : FVec Ideal S1024x1024 .f32) (v26 v29 v30 : FVec Ideal S1024x1 .f32)
    (r j : Fin 1024) :
    k0_pay1 (F := Ideal) v11 v13 v24 v26 v29 v30 (ix3 (0 : Fin 1) r j)
      = ((v24 (ix2 r j) - v26 (ix2 r (0 : Fin 1)) * v30 (ix2 r (0 : Fin 1)))
            * Ideal.rsqrt (((v29 (ix2 r (0 : Fin 1)) * Ideal.ofBits .f32 0x3A800000#32)
                - (v26 (ix2 r (0 : Fin 1)) * v30 (ix2 r (0 : Fin 1))) * (v26 (ix2 r (0 : Fin 1)) * v30 (ix2 r (0 : Fin 1))))
              + Ideal.ofBits .f32 0x3727C5AC#32))
          * v11 (ix2 (0 : Fin 1) j) + v13 (ix2 (0 : Fin 1) j) := by
  unfold k0_pay1
  refine (shapeCast_ab_1ab_apply _ _ 0 r j).trans ?_
  exact congrArg₂ (· + ·)
    (congrArg₂ (· * ·)
      (congrArg₂ (· * ·)
        (congrArg₂ (· - ·) rfl (broadcastTo_a1_ab_apply _ _ r j))
        (broadcastTo_a1_ab_apply _ _ r j))
      (broadcastTo_1b_ab_apply _ _ r j))
    (broadcastTo_1b_ab_apply _ _ r j)

end Pay

open Pay

/-- Entry (0, r, j) of the body's result block. -/
theorem pointVal_apply (x0 : Vec Ideal S1x1024x1024 .f32) (x1 : Vec Ideal S1x1024x256 .bf16) (x2 : Vec Ideal S1x256x1024 .bf16)
    (x3 : Vec Ideal S1x1x256 .f32) (x4 x5 x6 : Vec Ideal S1x1x1024 .f32) (r j : Fin 1024) :
    pointVal (F := Ideal) x0 x1 x2 x3 x4 x5 x6 (ix3 (0 : Fin 1) r j)
      = Cert.Adapter.lnK
          (Cert.Adapter.resid (fun k => x0 (ix3 (0 : Fin 1) r k)) (fun k a => x1 (ix3 (0 : Fin 1) k a))
            (fun a => x3 (ix3 (0 : Fin 1) (0 : Fin 1) a)) (fun a j => x2 (ix3 (0 : Fin 1) a j))
            (fun j => x4 (ix3 (0 : Fin 1) (0 : Fin 1) j)))
          (fun j => x5 (ix3 (0 : Fin 1) (0 : Fin 1) j)) (fun j => x6 (ix3 (0 : Fin 1) (0 : Fin 1) j)) j := by
  unfold pointVal
  refine (pay1_apply _ _ _ _ _ _ r j).trans ?_
  unfold Cert.Adapter.lnK
  have hS := (pay5_apply x0 x1 x2 x3 x4 r 0).trans (Finset.sum_congr rfl fun k _ => pay4_apply x0 x1 x2 x3 x4 r k)
  have hQ := (pay6_apply x0 x1 x2 x3 x4 r 0).trans (Finset.sum_congr rfl fun k _ =>
    congrArg₂ (· * ·) (pay4_apply x0 x1 x2 x3 x4 r k) (pay4_apply x0 x1 x2 x3 x4 r k))
  have h7 : k0_pay7 (F := Ideal) (ix2 r (0 : Fin 1)) = Ideal.ofBits .f32 0x3A800000#32 := rfl
  have h2 : k0_pay2 (F := Ideal) x5 (ix2 (0 : Fin 1) j) = x5 (ix3 (0 : Fin 1) (0 : Fin 1) j) := shapeCast_1ab_ab_apply x5 _ 0 j
  have h3 : k0_pay3 (F := Ideal) x6 (ix2 (0 : Fin 1) j) = x6 (ix3 (0 : Fin 1) (0 : Fin 1) j) := shapeCast_1ab_ab_apply x6 _ 0 j
  rw [pay4_apply x0 x1 x2 x3 x4 r j, hS, hQ, h7, h2, h3]

end Cert.KernelIdeal.KValue

end
-- ==== Proof.KBlocks.lean ====
/-
  Where each window's block lies in its array, with the table's contents a parameter: the hidden-states block of
  point t is rows [1024·s, 1024·s + 1024) of sample b, where (b, s) are t's coordinates; each per-language block
  is the whole matrix or vector of the language the table names for sample b.
-/
import proofs.«407231_j15006615733345_3_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

variable {F : FTy → Type} [FloatOps F]

/-! ## The table word of a point -/

/-- The word the index maps read: the table at the point's first coordinate. -/
def tword (pf : pre0.Contents (Elt F)) (i : grid0.Coords) : BitVec 32 :=
  pf.at 0 (Rect.unit (s := S32) ![(Scalar.indexCast (BitVec.ofNat 32 (i 0).val)).toNat] S1.size (k0_off1_inb i)) numel1_S1

theorem coord0_lt (i : grid0.Coords) : (i 0).val < 32 := (i 0).isLt
theorem coord1_lt (i : grid0.Coords) : (i 1).val < 2 := (i 1).isLt

/-- A one-word rectangle of the table at offset v holds the table's index v. -/
theorem unit_emb (v : Nat) (h : ∀ a, (![v] : Fin 1 → Nat) a + S1.size a ≤ S32.size a)
    (y : (Rect.unit (s := S32) ![v] S1.size h).shape.Idx) :
    ((Rect.unit (s := S32) ![v] S1.size h).emb y (0 : Fin 1)).val = v := by
  show v + 1 * (y 0).val = v
  have : (y 0).val < 1 := (y 0).isLt
  omega

/-- It is the table's entry at that coordinate. -/
theorem tword_eq (pf : pre0.Contents (Elt F)) (i : grid0.Coords) :
    tword pf i = pf 0 (ix1 ⟨(i 0).val, coord0_lt i⟩) := by
  unfold tword
  show pf 0 _ = pf 0 _
  refine congrArg (pf 0) (funext fun d => Fin.ext ?_)
  have h := coord0_lt i
  have e : (Scalar.indexCast (BitVec.ofNat 32 (i 0).val)).toNat = (i 0).val := by
    show (BitVec.ofNat 32 (i 0).val).toNat = _
    rw [BitVec.toNat_ofNat]; omega
  match d with
  | ⟨0, _⟩ => exact (unit_emb _ _ _).trans e

/-- The six table-indexed index maps: the table word on the language axis, zero on the others. -/
theorem ix1_0 (pf : pre0.Contents (Elt F)) (i : grid0.Coords) : cc0_transform_1 k0_off1_inb numel1_S1 pf i (0 : Fin 3) = (tword pf i).toNat := rfl
theorem ix2_0 (pf : pre0.Contents (Elt F)) (i : grid0.Coords) : cc0_transform_2 k0_off1_inb numel1_S1 pf i (0 : Fin 3) = (tword pf i).toNat := rfl
theorem ix3_0 (pf : pre0.Contents (Elt F)) (i : grid0.Coords) : cc0_transform_3 k0_off1_inb numel1_S1 pf i (0 : Fin 3) = (tword pf i).toNat := rfl
theorem ix4_0 (pf : pre0.Contents (Elt F)) (i : grid0.Coords) : cc0_transform_4 k0_off1_inb numel1_S1 pf i (0 : Fin 3) = (tword pf i).toNat := rfl
theorem ix5_0 (pf : pre0.Contents (Elt F)) (i : grid0.Coords) : cc0_transform_5 k0_off1_inb numel1_S1 pf i (0 : Fin 3) = (tword pf i).toNat := rfl
theorem ix6_0 (pf : pre0.Contents (Elt F)) (i : grid0.Coords) : cc0_transform_6 k0_off1_inb numel1_S1 pf i (0 : Fin 3) = (tword pf i).toNat := rfl

/-- Under the pipeline's side condition the word names one of the ten languages. -/
theorem tword_lt (pf : pre0.Contents (Elt F)) (hok : ok0 pf) (i : grid0.Coords) : (tword pf i).toNat < 10 := by
  obtain ⟨h, -⟩ := hok.1 i
  have h0 : (cc0_transform_1 k0_off1_inb numel1_S1 pf i (0 : Fin 3) + 1) * 1 ≤ 10 := h 0
  rw [ix1_0] at h0
  omega

/-! ## Reading a block: the array at the block's offset plus the position inside the block -/

section Reads
variable (a : (pcfg0 (F := F)).Adm) (t : Fin (cfg0 a).N)

theorem read0 (A : S32x2048x1024.Idx → Elt F .f32) (y : S1x1024x1024.Idx) (i : S32x2048x1024.Idx)
    (h0 : (i 0).val = (grid0.coords t 0).val) (h1 : (i 1).val = (grid0.coords t 1).val * 1024 + (y 1).val) (h2 : (i 2).val = (y 2).val) :
    (((cfg0 a).win 0).blk t).view.read (Elt F) A y = A i := by
  show A ((((cfg0 a).win 0).blk t).view.emb y) = A i
  refine congrArg A (funext fun d => Fin.ext ?_)
  have c0 := coord0_lt (grid0.coords t)
  have c1 := coord1_lt (grid0.coords t)
  have y0 : (y 0).val < 1 := (y 0).isLt
  match d with
  | ⟨0, _⟩ =>
    show (BitVec.ofNat 32 (grid0.coords t 0).val).toNat * 1 + 1 * (y 0).val = (i 0).val
    rw [BitVec.toNat_ofNat, h0]; omega
  | ⟨1, _⟩ =>
    show (BitVec.ofNat 32 (grid0.coords t 1).val).toNat * 1024 + 1 * (y 1).val = (i 1).val
    rw [BitVec.toNat_ofNat, h1]; omega
  | ⟨2, _⟩ =>
    show (0#32).toNat * 1024 + 1 * (y 2).val = (i 2).val
    rw [h2]; simp

theorem read7 (A : S32x2048x1024.Idx → Elt F .f32) (y : S1x1024x1024.Idx) (i : S32x2048x1024.Idx)
    (h0 : (i 0).val = (grid0.coords t 0).val) (h1 : (i 1).val = (grid0.coords t 1).val * 1024 + (y 1).val) (h2 : (i 2).val = (y 2).val) :
    (((cfg0 a).win 7).blk t).view.read (Elt F) A y = A i := by
  show A ((((cfg0 a).win 7).blk t).view.emb y) = A i
  refine congrArg A (funext fun d => Fin.ext ?_)
  have c0 := coord0_lt (grid0.coords t)
  have c1 := coord1_lt (grid0.coords t)
  have y0 : (y 0).val < 1 := (y 0).isLt
  match d with
  | ⟨0, _⟩ =>
    show (BitVec.ofNat 32 (grid0.coords t 0).val).toNat * 1 + 1 * (y 0).val = (i 0).val
    rw [BitVec.toNat_ofNat, h0]; omega
  | ⟨1, _⟩ =>
    show (BitVec.ofNat 32 (grid0.coords t 1).val).toNat * 1024 + 1 * (y 1).val = (i 1).val
    rw [BitVec.toNat_ofNat, h1]; omega
  | ⟨2, _⟩ =>
    show (0#32).toNat * 1024 + 1 * (y 2).val = (i 2).val
    rw [h2]; simp

theorem read1 (A : S10x1024x256.Idx → Elt F .bf16) (y : S1x1024x256.Idx) (i : S10x1024x256.Idx)
    (h0 : (i 0).val = (tword a.1 (grid0.coords t)).toNat) (h1 : (i 1).val = (y 1).val) (h2 : (i 2).val = (y 2).val) :
    (((cfg0 a).win 1).blk t).view.read (Elt F) A y = A i := by
  show A ((((cfg0 a).win 1).blk t).view.emb y) = A i
  refine congrArg A (funext fun d => Fin.ext ?_)
  have y0 : (y 0).val < 1 := (y 0).isLt
  match d with
  | ⟨0, _⟩ => show (tword a.1 (grid0.coords t)).toNat * 1 + 1 * (y 0).val = (i 0).val; rw [h0]; omega
  | ⟨1, _⟩ => show (0#32).toNat * 1024 + 1 * (y 1).val = (i 1).val; rw [h1]; simp
  | ⟨2, _⟩ => show (0#32).toNat * 256 + 1 * (y 2).val = (i 2).val; rw [h2]; simp

theorem read2 (A : S10x256x1024.Idx → Elt F .bf16) (y : S1x256x1024.Idx) (i : S10x256x1024.Idx)
    (h0 : (i 0).val = (tword a.1 (grid0.coords t)).toNat) (h1 : (i 1).val = (y 1).val) (h2 : (i 2).val = (y 2).val) :
    (((cfg0 a).win 2).blk t).view.read (Elt F) A y = A i := by
  show A ((((cfg0 a).win 2).blk t).view.emb y) = A i
  refine congrArg A (funext fun d => Fin.ext ?_)
  have y0 : (y 0).val < 1 := (y 0).isLt
  match d with
  | ⟨0, _⟩ => show (tword a.1 (grid0.coords t)).toNat * 1 + 1 * (y 0).val = (i 0).val; rw [h0]; omega
  | ⟨1, _⟩ => show (0#32).toNat * 256 + 1 * (y 1).val = (i 1).val; rw [h1]; simp
  | ⟨2, _⟩ => show (0#32).toNat * 1024 + 1 * (y 2).val = (i 2).val; rw [h2]; simp

theorem read3 (A : S10x1x256.Idx → Elt F .f32) (y : S1x1x256.Idx) (i : S10x1x256.Idx)
    (h0 : (i 0).val = (tword a.1 (grid0.coords t)).toNat) (h1 : (i 1).val = (y 1).val) (h2 : (i 2).val = (y 2).val) :
    (((cfg0 a).win 3).blk t).view.read (Elt F) A y = A i := by
  show A ((((cfg0 a).win 3).blk t).view.emb y) = A i
  refine congrArg A (funext fun d => Fin.ext ?_)
  have y0 : (y 0).val < 1 := (y 0).isLt
  match d with
  | ⟨0, _⟩ => show (tword a.1 (grid0.coords t)).toNat * 1 + 1 * (y 0).val = (i 0).val; rw [h0]; omega
  | ⟨1, _⟩ => show (0#32).toNat * 1 + 1 * (y 1).val = (i 1).val; rw [h1]; simp
  | ⟨2, _⟩ => show (0#32).toNat * 256 + 1 * (y 2).val = (i 2).val; rw [h2]; simp

theorem read4 (A : S10x1x1024.Idx → Elt F .f32) (y : S1x1x1024.Idx) (i : S10x1x1024.Idx)
    (h0 : (i 0).val = (tword a.1 (grid0.coords t)).toNat) (h1 : (i 1).val = (y 1).val) (h2 : (i 2).val = (y 2).val) :
    (((cfg0 a).win 4).blk t).view.read (Elt F) A y = A i := by
  show A ((((cfg0 a).win 4).blk t).view.emb y) = A i
  refine congrArg A (funext fun d => Fin.ext ?_)
  have y0 : (y 0).val < 1 := (y 0).isLt
  match d with
  | ⟨0, _⟩ => show (tword a.1 (grid0.coords t)).toNat * 1 + 1 * (y 0).val = (i 0).val; rw [h0]; omega
  | ⟨1, _⟩ => show (0#32).toNat * 1 + 1 * (y 1).val = (i 1).val; rw [h1]; simp
  | ⟨2, _⟩ => show (0#32).toNat * 1024 + 1 * (y 2).val = (i 2).val; rw [h2]; simp

theorem read5 (A : S10x1x1024.Idx → Elt F .f32) (y : S1x1x1024.Idx) (i : S10x1x1024.Idx)
    (h0 : (i 0).val = (tword a.1 (grid0.coords t)).toNat) (h1 : (i 1).val = (y 1).val) (h2 : (i 2).val = (y 2).val) :
    (((cfg0 a).win 5).blk t).view.read (Elt F) A y = A i := by
  show A ((((cfg0 a).win 5).blk t).view.emb y) = A i
  refine congrArg A (funext fun d => Fin.ext ?_)
  have y0 : (y 0).val < 1 := (y 0).isLt
  match d with
  | ⟨0, _⟩ => show (tword a.1 (grid0.coords t)).toNat * 1 + 1 * (y 0).val = (i 0).val; rw [h0]; omega
  | ⟨1, _⟩ => show (0#32).toNat * 1 + 1 * (y 1).val = (i 1).val; rw [h1]; simp
  | ⟨2, _⟩ => show (0#32).toNat * 1024 + 1 * (y 2).val = (i 2).val; rw [h2]; simp

theorem read6 (A : S10x1x1024.Idx → Elt F .f32) (y : S1x1x1024.Idx) (i : S10x1x1024.Idx)
    (h0 : (i 0).val = (tword a.1 (grid0.coords t)).toNat) (h1 : (i 1).val = (y 1).val) (h2 : (i 2).val = (y 2).val) :
    (((cfg0 a).win 6).blk t).view.read (Elt F) A y = A i := by
  show A ((((cfg0 a).win 6).blk t).view.emb y) = A i
  refine congrArg A (funext fun d => Fin.ext ?_)
  have y0 : (y 0).val < 1 := (y 0).isLt
  match d with
  | ⟨0, _⟩ => show (tword a.1 (grid0.coords t)).toNat * 1 + 1 * (y 0).val = (i 0).val; rw [h0]; omega
  | ⟨1, _⟩ => show (0#32).toNat * 1 + 1 * (y 1).val = (i 1).val; rw [h1]; simp
  | ⟨2, _⟩ => show (0#32).toNat * 1024 + 1 * (y 2).val = (i 2).val; rw [h2]; simp

end Reads

/-! ## What the host wrote before the region: the two format changes and the four reshapes -/

section Host
variable (m : (ℓ : Loc nD τ sig) → Buf (Elt F) ℓ)

theorem V_v1 (c : Dev nD) : (V m c main_v1 : S10x1024x256.Idx → Elt F .bf16) = truncf .bf16 (m ((c : Thread nD τ).loc main_arg2)) bitsLt_bf16_f32 := by
  dsimp only [Gen.V]
  simp only [Gen.hostOps0, Gen.hostOps0_1, Gen.hostOps0_2, List.flatten_cons, List.flatten_nil, List.append_nil, List.cons_append, List.nil_append]
  after_results

theorem V_v2 (c : Dev nD) : (V m c main_v2 : S10x256x1024.Idx → Elt F .bf16) = truncf .bf16 (m ((c : Thread nD τ).loc main_arg4)) bitsLt_bf16_f32 := by
  dsimp only [Gen.V]
  simp only [Gen.hostOps0, Gen.hostOps0_1, Gen.hostOps0_2, List.flatten_cons, List.flatten_nil, List.append_nil, List.cons_append, List.nil_append]
  after_results

theorem V_v3 (c : Dev nD) : (V m c main_v3 : S10x1x256.Idx → Elt F .f32) = shapeCast S10x1x256 (m ((c : Thread nD τ).loc main_arg3)) shapeCasts_S10x256_S10x1x256 := by
  dsimp only [Gen.V]
  simp only [Gen.hostOps0, Gen.hostOps0_1, Gen.hostOps0_2, List.flatten_cons, List.flatten_nil, List.append_nil, List.cons_append, List.nil_append]
  after_results
  rfl

theorem V_v4 (c : Dev nD) : (V m c main_v4 : S10x1x1024.Idx → Elt F .f32) = shapeCast S10x1x1024 (m ((c : Thread nD τ).loc main_arg5)) shapeCasts_S10x1024_S10x1x1024 := by
  dsimp only [Gen.V]
  simp only [Gen.hostOps0, Gen.hostOps0_1, Gen.hostOps0_2, List.flatten_cons, List.flatten_nil, List.append_nil, List.cons_append, List.nil_append]
  after_results
  rfl

theorem V_v5 (c : Dev nD) : (V m c main_v5 : S10x1x1024.Idx → Elt F .f32) = shapeCast S10x1x1024 (m ((c : Thread nD τ).loc main_arg6)) shapeCasts_S10x1024_S10x1x1024 := by
  dsimp only [Gen.V]
  simp only [Gen.hostOps0, Gen.hostOps0_1, Gen.hostOps0_2, List.flatten_cons, List.flatten_nil, List.append_nil, List.cons_append, List.nil_append]
  after_results
  rfl

theorem V_v6 (c : Dev nD) : (V m c main_v6 : S10x1x1024.Idx → Elt F .f32) = shapeCast S10x1x1024 (m ((c : Thread nD τ).loc main_arg7)) shapeCasts_S10x1024_S10x1x1024 := by
  dsimp only [Gen.V]
  simp only [Gen.hostOps0, Gen.hostOps0_1, Gen.hostOps0_2, List.flatten_cons, List.flatten_nil, List.append_nil, List.cons_append, List.nil_append]
  after_results
  rfl

/-- A [10, n] table reshaped to [10, 1, n] reads, at (l, 0, q), the table at (l, q): the same row-major position. -/
theorem reshape_mid_apply {α : Type} {n : Nat} (x : (⟨2, ![10, n]⟩ : Shape).Idx → α)
    (h : (⟨2, ![10, n]⟩ : Shape).ShapeCasts ⟨3, ![10, 1, n]⟩) (l : Fin 10) (q : Fin n) :
    shapeCast (⟨3, ![10, 1, n]⟩ : Shape) x h (ix3 l (0 : Fin 1) q) = x (ix2 l q) := by
  refine shapeCast_apply x h _ _ ?_
  rw [Shape.rowMajor_val_two, Shape.rowMajor_val_three]
  show l.val * n + q.val = (l.val * 1 + 0) * n + q.val
  simp

end Host

end Cert.KernelIdeal.KValue

end
-- ==== Proof.KFinal.lean ====
/-
  The kernel's result array. Point t of the 32 × 2 grid, with coordinates (b, s), reads rows [1024·s, 1024·s + 1024)
  of sample b and the whole parameter blocks of the language the table names for b, and writes back the one-pass
  normalisation of those rows' residual rows. The 64 blocks tile the result array (row ρ of sample b belongs to
  point 2·b + ⌊ρ/1024⌋), and each is the restriction of ONE whole-array function of the argument arrays.
-/
import proofs.«407231_j15006615733345_3_alg».proof.Proof.KPoint
import proofs.«407231_j15006615733345_3_alg».proof.Proof.KPay
import proofs.«407231_j15006615733345_3_alg».proof.Proof.KBlocks
import proofs.«407231_j15006615733345_3_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Adapter

variable (m : (ℓ : Loc nD τ sig) → Buf (Elt Ideal) ℓ) (ρ : Dev nD → PrngReg)

/-- The result array: the one-pass specification of the argument arrays, each sample's language read off the table. -/
def result (c : Dev nD) : S32x2048x1024.Idx → EReal :=
  outArr lnK (m ((c : Thread nD τ).loc main_arg0)) (langOf (Gen.tbl m 0)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The language of a point's sample is the point's table word. -/
theorem lk_val (hO : Gen.Ok m) (i : grid0.Coords) : (langOf (Gen.tbl m 0) ⟨(i 0).val, coord0_lt i⟩).val = (tword (Gen.tbl m) i).toNat := by
  have hlt := tword_lt (Gen.tbl m) hO i
  rw [tword_eq] at hlt ⊢
  exact langOf_val _ _ hlt

variable (hO : Gen.Ok m)

/-! ## The seven input blocks of a point, at their literal types -/

abbrev blk0 (c : Dev nD) (t : Fin (cfgM m hO).N) : Vec Ideal S1x1024x1024 .f32 := iblk m hO c 0 t
abbrev blk1 (c : Dev nD) (t : Fin (cfgM m hO).N) : Vec Ideal S1x1024x256 .bf16 := iblk m hO c 1 t
abbrev blk2 (c : Dev nD) (t : Fin (cfgM m hO).N) : Vec Ideal S1x256x1024 .bf16 := iblk m hO c 2 t
abbrev blk3 (c : Dev nD) (t : Fin (cfgM m hO).N) : Vec Ideal S1x1x256 .f32 := iblk m hO c 3 t
abbrev blk4 (c : Dev nD) (t : Fin (cfgM m hO).N) : Vec Ideal S1x1x1024 .f32 := iblk m hO c 4 t
abbrev blk5 (c : Dev nD) (t : Fin (cfgM m hO).N) : Vec Ideal S1x1x1024 .f32 := iblk m hO c 5 t
abbrev blk6 (c : Dev nD) (t : Fin (cfgM m hO).N) : Vec Ideal S1x1x1024 .f32 := iblk m hO c 6 t

/-- The sample of a point, and the array row of the point's block row r. -/
abbrev pb (t : Fin (cfgM m hO).N) : Fin 32 := ⟨(grid0.coords t 0).val, coord0_lt _⟩
abbrev prow (t : Fin (cfgM m hO).N) (r : Fin 1024) : Fin 2048 :=
  ⟨(grid0.coords t 1).val * 1024 + r.val, by have := coord1_lt (grid0.coords t); have := r.isLt; omega⟩
/-- The language of a point's sample. -/
abbrev pl (t : Fin (cfgM m hO).N) : Fin 10 := langOf (Gen.tbl m 0) (pb m hO t)

theorem e0 (c : Dev nD) (t : Fin (cfgM m hO).N) (r k : Fin 1024) :
    blk0 m hO c t (ix3 (0 : Fin 1) r k) = (m ((c : Thread nD τ).loc main_arg0)) (ix3 (pb m hO t) (prow m hO t r) k) := by
  show (((cfg0 (adm m hO)).win 0).blk t).view.read (Elt Ideal) (V m c main_arg0) (ix3 (0 : Fin 1) r k) = _
  exact (read0 (adm m hO) t (V m c main_arg0) (ix3 (0 : Fin 1) r k) (ix3 (pb m hO t) (prow m hO t r) k) rfl rfl rfl).trans
    (congrFun (V_main_arg0 m c) _)

theorem e1 (c : Dev nD) (t : Fin (cfgM m hO).N) (k : Fin 1024) (a : Fin 256) :
    blk1 m hO c t (ix3 (0 : Fin 1) k a) = (m ((c : Thread nD τ).loc main_arg2)) (ix3 (pl m hO t) k a) := by
  show (((cfg0 (adm m hO)).win 1).blk t).view.read (Elt Ideal) (V m c main_v1) (ix3 (0 : Fin 1) k a) = _
  exact (read1 (adm m hO) t (V m c main_v1) (ix3 (0 : Fin 1) k a) (ix3 (pl m hO t) k a) (lk_val m hO _) rfl rfl).trans
    (congrFun (V_v1 m c) _)

theorem e2 (c : Dev nD) (t : Fin (cfgM m hO).N) (a : Fin 256) (j : Fin 1024) :
    blk2 m hO c t (ix3 (0 : Fin 1) a j) = (m ((c : Thread nD τ).loc main_arg4)) (ix3 (pl m hO t) a j) := by
  show (((cfg0 (adm m hO)).win 2).blk t).view.read (Elt Ideal) (V m c main_v2) (ix3 (0 : Fin 1) a j) = _
  exact (read2 (adm m hO) t (V m c main_v2) (ix3 (0 : Fin 1) a j) (ix3 (pl m hO t) a j) (lk_val m hO _) rfl rfl).trans
    (congrFun (V_v2 m c) _)

theorem e3 (c : Dev nD) (t : Fin (cfgM m hO).N) (a : Fin 256) :
    blk3 m hO c t (ix3 (0 : Fin 1) (0 : Fin 1) a) = (m ((c : Thread nD τ).loc main_arg3)) (ix2 (pl m hO t) a) := by
  show (((cfg0 (adm m hO)).win 3).blk t).view.read (Elt Ideal) (V m c main_v3) (ix3 (0 : Fin 1) (0 : Fin 1) a) = _
  exact ((read3 (adm m hO) t (V m c main_v3) (ix3 (0 : Fin 1) (0 : Fin 1) a) (ix3 (pl m hO t) (0 : Fin 1) a) (lk_val m hO _) rfl rfl).trans
    (congrFun (V_v3 m c) _)).trans (reshape_mid_apply _ _ _ _)

theorem e4 (c : Dev nD) (t : Fin (cfgM m hO).N) (j : Fin 1024) :
    blk4 m hO c t (ix3 (0 : Fin 1) (0 : Fin 1) j) = (m ((c : Thread nD τ).loc main_arg5)) (ix2 (pl m hO t) j) := by
  show (((cfg0 (adm m hO)).win 4).blk t).view.read (Elt Ideal) (V m c main_v4) (ix3 (0 : Fin 1) (0 : Fin 1) j) = _
  exact ((read4 (adm m hO) t (V m c main_v4) (ix3 (0 : Fin 1) (0 : Fin 1) j) (ix3 (pl m hO t) (0 : Fin 1) j) (lk_val m hO _) rfl rfl).trans
    (congrFun (V_v4 m c) _)).trans (reshape_mid_apply _ _ _ _)

theorem e5 (c : Dev nD) (t : Fin (cfgM m hO).N) (j : Fin 1024) :
    blk5 m hO c t (ix3 (0 : Fin 1) (0 : Fin 1) j) = (m ((c : Thread nD τ).loc main_arg6)) (ix2 (pl m hO t) j) := by
  show (((cfg0 (adm m hO)).win 5).blk t).view.read (Elt Ideal) (V m c main_v5) (ix3 (0 : Fin 1) (0 : Fin 1) j) = _
  exact ((read5 (adm m hO) t (V m c main_v5) (ix3 (0 : Fin 1) (0 : Fin 1) j) (ix3 (pl m hO t) (0 : Fin 1) j) (lk_val m hO _) rfl rfl).trans
    (congrFun (V_v5 m c) _)).trans (reshape_mid_apply _ _ _ _)

theorem e6 (c : Dev nD) (t : Fin (cfgM m hO).N) (j : Fin 1024) :
    blk6 m hO c t (ix3 (0 : Fin 1) (0 : Fin 1) j) = (m ((c : Thread nD τ).loc main_arg7)) (ix2 (pl m hO t) j) := by
  show (((cfg0 (adm m hO)).win 6).blk t).view.read (Elt Ideal) (V m c main_v6) (ix3 (0 : Fin 1) (0 : Fin 1) j) = _
  exact ((read6 (adm m hO) t (V m c main_v6) (ix3 (0 : Fin 1) (0 : Fin 1) j) (ix3 (pl m hO t) (0 : Fin 1) j) (lk_val m hO _) rfl rfl).trans
    (congrFun (V_v6 m c) _)).trans (reshape_mid_apply _ _ _ _)

/-! ## What a point writes back is its block of the result array -/

/-- Entry by entry: the body's result block at (0, r, j) is the result array at (b, 1024·s + r, j). -/
theorem point_entry (c : Dev nD) (t : Fin (cfgM m hO).N) (y : S1x1024x1024.Idx) :
    pointVal (blk0 m hO c t) (blk1 m hO c t) (blk2 m hO c t) (blk3 m hO c t) (blk4 m hO c t) (blk5 m hO c t) (blk6 m hO c t) y
      = (((cfg0 (adm m hO)).win 7).blk t).view.read (Elt Ideal) (result m c) y := by
  obtain ⟨y0, r, j, rfl⟩ : ∃ (y0 : Fin 1) (r j : Fin 1024), y = ix3 y0 r j := ⟨y 0, y 1, y 2, eq_ix3 y⟩
  obtain rfl : y0 = 0 := Subsingleton.elim _ _
  refine (pointVal_apply _ _ _ _ _ _ _ r j).trans ?_
  refine Eq.trans ?_ (read7 (adm m hO) t (result m c) (ix3 (0 : Fin 1) r j) (ix3 (pb m hO t) (prow m hO t r) j) rfl rfl rfl).symm
  show _ = outAt lnK (m ((c : Thread nD τ).loc main_arg0)) (langOf (Gen.tbl m 0)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (pb m hO t) (prow m hO t r) j
  unfold outAt residRow
  simp only [e0 m hO c t, e1 m hO c t, e2 m hO c t, e3 m hO c t, e4 m hO c t, e5 m hO c t, e6 m hO c t]

theorem flushed_eq (c : Dev nD) (t : Fin (cfgM m hO).N) :
    (dats m hO 0 c).flushed 7 t = (((cfgM m hO).win 7).blk t).view.read (Elt Ideal) (result m c) := by
  show ((cfgM m hO).win 7).cut (grid0.coords t) ((dats m hO 0 c).after 7 t) = _
  rw [after0_7]
  unfold outsAt0
  funext y
  exact (congrFun (out_A c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (ms0_7 m hO t) (hs0_7 m hO t) (blk0 m hO c t) (blk1 m hO c t) (blk2 m hO c t) (blk3 m hO c t) (blk4 m hO c t) (blk5 m hO c t)
    (blk6 m hO c t) (tbl m 0)) y).trans (point_entry m hO c t y)

/-! ## The blocks tile the array -/

set_option backward.isDefEq.respectTransparency.types false in
theorem mem_blk (t : Fin (cfgM m hO).N) (i : S32x2048x1024.Idx) :
    i ∈ (((cfgM m hO).win 7).blk t).view.set ↔ ∀ a : Fin 3, ((cfgM m hO).win 7).index t a * S1x1024x1024.size a ≤ (i a).val
      ∧ (i a).val < ((cfgM m hO).win 7).index t a * S1x1024x1024.size a + S1x1024x1024.size a := by
  show i ∈ ((View.whole main_v7).slice (((cfgM m hO).win 7).rect t)).set ↔ _
  rw [View.set_slice_whole]
  exact Rect.mem_set_unit

theorem cover (c : Dev nD) (i : S32x2048x1024.Idx) :
    ∃ t : Fin (cfgM m hO).N, ((cfgM m hO).win 7).flush t = true ∧ i ∈ (((cfgM m hO).win 7).blk t).view.set := by
  have h0 : (i 0).val < 32 := (i 0).isLt
  have h1 : (i 1).val < 2048 := (i 1).isLt
  have h2 : (i 2).val < 1024 := (i 2).isLt
  have hN : grid0.N = 64 := N_0
  refine ⟨⟨(i 0).val * 2 + (i 1).val / 1024, by show _ < grid0.N; rw [hN]; omega⟩, flush0_7 (adm m hO) _, ?_⟩
  rw [mem_blk]
  intro a
  have hs0 : grid0.stride (0 : Fin 2) = 2 := by decide
  have hs1 : grid0.stride (1 : Fin 2) = 1 := by decide
  match a with
  | ⟨0, _⟩ =>
    show (BitVec.ofNat 32 (((i 0).val * 2 + (i 1).val / 1024) / grid0.stride 0 % 32)).toNat * 1 ≤ (i 0).val
      ∧ (i 0).val < (BitVec.ofNat 32 (((i 0).val * 2 + (i 1).val / 1024) / grid0.stride 0 % 32)).toNat * 1 + 1
    rw [hs0, BitVec.toNat_ofNat]; omega
  | ⟨1, _⟩ =>
    show (BitVec.ofNat 32 (((i 0).val * 2 + (i 1).val / 1024) / grid0.stride 1 % 2)).toNat * 1024 ≤ (i 1).val
      ∧ (i 1).val < (BitVec.ofNat 32 (((i 0).val * 2 + (i 1).val / 1024) / grid0.stride 1 % 2)).toNat * 1024 + 1024
    rw [hs1, BitVec.toNat_ofNat]; omega
  | ⟨2, _⟩ =>
    show (0#32).toNat * 1024 ≤ (i 2).val ∧ (i 2).val < (0#32).toNat * 1024 + 1024
    simp; omega

/-- After the run the result array holds the specification. -/
theorem final (c : Dev nD) : (dats m hO 0 c).arrAt 7 (cfgM m hO).N = result m c :=
  (dats m hO 0 c).arrAt_eq_of_cover 7 (result m c) (fun t _ => flushed_eq m hO c t) (cover m hO c)

/-! ## The run, read -/

theorem run (hO : Gen.Ok m) : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 7).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩)
    (run_main m ρ hO)

end Cert.KernelIdeal.KValue

end
-- ==== Proof.RefValue.lean ====
/-
  The reference, read at an index: for sample b the gathers pick language ids[b]'s weight matrices, biases, scale
  and shift (in range, the index select and the gather's clamp are the identity), the two dot_generals are the
  bottleneck's sums, and the mean, the squared deviations and the rsqrt are the two-pass normalisation of the
  residual row.
-/
import proofs.«407231_j15006615733345_3_alg».proof.Proof.Gen.ReferenceIdeal.Read
import proofs.«407231_j15006615733345_3_alg».proof.Proof.Spec
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The four gathers read at an index

Each takes the slice of the table that the start index names on axis 0: the start index is read signed and clamped to
[0, 9], the other coordinates pass through. -/

/-- A start index read signed and clamped to [0, 9]. -/
def clamp9 {w : Nat} (a : BitVec w) : Fin 10 := ⟨min a.toInt.toNat 9, by omega⟩

theorem gather_w1_apply {α : Type} {w : Nat} (x : S10x1024x256.Idx → α) (idx : IVec S32x1 w)
    (b : Fin 32) (p : Fin 1024) (q : Fin 256) :
    Host.gather gather_S10x1024x256_S32x1_S32x1024x256_12_0_n_n_0_1_11024256 x idx (ix3 b p q) = x (ix3 (clamp9 (idx (ix2 b 0))) p q) := by
  have h0 : (GatherDims.operandIdx gather_S10x1024x256_S32x1_S32x1024x256_12_0_n_n_0_1_11024256 (ix3 b p q) idx (0 : Fin 3)).val = min (idx (ix2 b 0)).toInt.toNat 9 := by
    show GatherDims.start gather_S10x1024x256_S32x1_S32x1024x256_12_0_n_n_0_1_11024256 (ix3 b p q) idx (0 : Fin 3) + GatherDims.batchCoord gather_S10x1024x256_S32x1_S32x1024x256_12_0_n_n_0_1_11024256 (ix3 b p q) (0 : Fin 3)
      + GatherDims.offCoord gather_S10x1024x256_S32x1_S32x1024x256_12_0_n_n_0_1_11024256 (ix3 b p q) (0 : Fin 3) = _
    rw [GatherDims.batchCoord_eq_zero _ _ _ (by decide), GatherDims.offCoord_eq_zero _ _ _ (by decide)]
    unfold GatherDims.start
    rw [dif_pos (show (0 : Fin 3) ∈ GatherDims.startIndexMap gather_S10x1024x256_S32x1_S32x1024x256_12_0_n_n_0_1_11024256 by decide)]
    have hsi : GatherDims.siIdx gather_S10x1024x256_S32x1_S32x1024x256_12_0_n_n_0_1_11024256 (ix3 b p q)
        ⟨List.idxOf (0 : Fin 3) (GatherDims.startIndexMap gather_S10x1024x256_S32x1_S32x1024x256_12_0_n_n_0_1_11024256), List.idxOf_lt_length_iff.2 (by decide)⟩ = ix2 b 0 := by
      funext c; refine Fin.ext ?_
      match c with
      | ⟨0, _⟩ => rfl
      | ⟨1, _⟩ => rfl
    rw [hsi]
    rfl
  have h1 : (GatherDims.operandIdx gather_S10x1024x256_S32x1_S32x1024x256_12_0_n_n_0_1_11024256 (ix3 b p q) idx (1 : Fin 3)).val = p.val := by
    show GatherDims.start gather_S10x1024x256_S32x1_S32x1024x256_12_0_n_n_0_1_11024256 (ix3 b p q) idx (1 : Fin 3) + GatherDims.batchCoord gather_S10x1024x256_S32x1_S32x1024x256_12_0_n_n_0_1_11024256 (ix3 b p q) (1 : Fin 3)
      + GatherDims.offCoord gather_S10x1024x256_S32x1_S32x1024x256_12_0_n_n_0_1_11024256 (ix3 b p q) (1 : Fin 3) = _
    rw [GatherDims.batchCoord_eq_zero _ _ _ (by decide)]
    unfold GatherDims.start GatherDims.offCoord
    rw [dif_neg (show (1 : Fin 3) ∉ GatherDims.startIndexMap gather_S10x1024x256_S32x1_S32x1024x256_12_0_n_n_0_1_11024256 by decide),
      dif_pos (show (1 : Fin 3) ∈ GatherDims.sKept gather_S10x1024x256_S32x1_S32x1024x256_12_0_n_n_0_1_11024256 by decide), Nat.add_zero, Nat.zero_add]
    rfl
  have h2 : (GatherDims.operandIdx gather_S10x1024x256_S32x1_S32x1024x256_12_0_n_n_0_1_11024256 (ix3 b p q) idx (2 : Fin 3)).val = q.val := by
    show GatherDims.start gather_S10x1024x256_S32x1_S32x1024x256_12_0_n_n_0_1_11024256 (ix3 b p q) idx (2 : Fin 3) + GatherDims.batchCoord gather_S10x1024x256_S32x1_S32x1024x256_12_0_n_n_0_1_11024256 (ix3 b p q) (2 : Fin 3)
      + GatherDims.offCoord gather_S10x1024x256_S32x1_S32x1024x256_12_0_n_n_0_1_11024256 (ix3 b p q) (2 : Fin 3) = _
    rw [GatherDims.batchCoord_eq_zero _ _ _ (by decide)]
    unfold GatherDims.start GatherDims.offCoord
    rw [dif_neg (show (2 : Fin 3) ∉ GatherDims.startIndexMap gather_S10x1024x256_S32x1_S32x1024x256_12_0_n_n_0_1_11024256 by decide),
      dif_pos (show (2 : Fin 3) ∈ GatherDims.sKept gather_S10x1024x256_S32x1_S32x1024x256_12_0_n_n_0_1_11024256 by decide), Nat.add_zero, Nat.zero_add]
    rfl
  unfold Host.gather
  refine congrArg x ?_
  funext a
  refine Fin.ext ?_
  match a with
  | ⟨0, _⟩ => exact h0
  | ⟨1, _⟩ => exact h1
  | ⟨2, _⟩ => exact h2

theorem gather_w2_apply {α : Type} {w : Nat} (x : S10x256x1024.Idx → α) (idx : IVec S32x1 w)
    (b : Fin 32) (p : Fin 256) (q : Fin 1024) :
    Host.gather gather_S10x256x1024_S32x1_S32x256x1024_12_0_n_n_0_1_12561024 x idx (ix3 b p q) = x (ix3 (clamp9 (idx (ix2 b 0))) p q) := by
  have h0 : (GatherDims.operandIdx gather_S10x256x1024_S32x1_S32x256x1024_12_0_n_n_0_1_12561024 (ix3 b p q) idx (0 : Fin 3)).val = min (idx (ix2 b 0)).toInt.toNat 9 := by
    show GatherDims.start gather_S10x256x1024_S32x1_S32x256x1024_12_0_n_n_0_1_12561024 (ix3 b p q) idx (0 : Fin 3) + GatherDims.batchCoord gather_S10x256x1024_S32x1_S32x256x1024_12_0_n_n_0_1_12561024 (ix3 b p q) (0 : Fin 3)
      + GatherDims.offCoord gather_S10x256x1024_S32x1_S32x256x1024_12_0_n_n_0_1_12561024 (ix3 b p q) (0 : Fin 3) = _
    rw [GatherDims.batchCoord_eq_zero _ _ _ (by decide), GatherDims.offCoord_eq_zero _ _ _ (by decide)]
    unfold GatherDims.start
    rw [dif_pos (show (0 : Fin 3) ∈ GatherDims.startIndexMap gather_S10x256x1024_S32x1_S32x256x1024_12_0_n_n_0_1_12561024 by decide)]
    have hsi : GatherDims.siIdx gather_S10x256x1024_S32x1_S32x256x1024_12_0_n_n_0_1_12561024 (ix3 b p q)
        ⟨List.idxOf (0 : Fin 3) (GatherDims.startIndexMap gather_S10x256x1024_S32x1_S32x256x1024_12_0_n_n_0_1_12561024), List.idxOf_lt_length_iff.2 (by decide)⟩ = ix2 b 0 := by
      funext c; refine Fin.ext ?_
      match c with
      | ⟨0, _⟩ => rfl
      | ⟨1, _⟩ => rfl
    rw [hsi]
    rfl
  have h1 : (GatherDims.operandIdx gather_S10x256x1024_S32x1_S32x256x1024_12_0_n_n_0_1_12561024 (ix3 b p q) idx (1 : Fin 3)).val = p.val := by
    show GatherDims.start gather_S10x256x1024_S32x1_S32x256x1024_12_0_n_n_0_1_12561024 (ix3 b p q) idx (1 : Fin 3) + GatherDims.batchCoord gather_S10x256x1024_S32x1_S32x256x1024_12_0_n_n_0_1_12561024 (ix3 b p q) (1 : Fin 3)
      + GatherDims.offCoord gather_S10x256x1024_S32x1_S32x256x1024_12_0_n_n_0_1_12561024 (ix3 b p q) (1 : Fin 3) = _
    rw [GatherDims.batchCoord_eq_zero _ _ _ (by decide)]
    unfold GatherDims.start GatherDims.offCoord
    rw [dif_neg (show (1 : Fin 3) ∉ GatherDims.startIndexMap gather_S10x256x1024_S32x1_S32x256x1024_12_0_n_n_0_1_12561024 by decide),
      dif_pos (show (1 : Fin 3) ∈ GatherDims.sKept gather_S10x256x1024_S32x1_S32x256x1024_12_0_n_n_0_1_12561024 by decide), Nat.add_zero, Nat.zero_add]
    rfl
  have h2 : (GatherDims.operandIdx gather_S10x256x1024_S32x1_S32x256x1024_12_0_n_n_0_1_12561024 (ix3 b p q) idx (2 : Fin 3)).val = q.val := by
    show GatherDims.start gather_S10x256x1024_S32x1_S32x256x1024_12_0_n_n_0_1_12561024 (ix3 b p q) idx (2 : Fin 3) + GatherDims.batchCoord gather_S10x256x1024_S32x1_S32x256x1024_12_0_n_n_0_1_12561024 (ix3 b p q) (2 : Fin 3)
      + GatherDims.offCoord gather_S10x256x1024_S32x1_S32x256x1024_12_0_n_n_0_1_12561024 (ix3 b p q) (2 : Fin 3) = _
    rw [GatherDims.batchCoord_eq_zero _ _ _ (by decide)]
    unfold GatherDims.start GatherDims.offCoord
    rw [dif_neg (show (2 : Fin 3) ∉ GatherDims.startIndexMap gather_S10x256x1024_S32x1_S32x256x1024_12_0_n_n_0_1_12561024 by decide),
      dif_pos (show (2 : Fin 3) ∈ GatherDims.sKept gather_S10x256x1024_S32x1_S32x256x1024_12_0_n_n_0_1_12561024 by decide), Nat.add_zero, Nat.zero_add]
    rfl
  unfold Host.gather
  refine congrArg x ?_
  funext a
  refine Fin.ext ?_
  match a with
  | ⟨0, _⟩ => exact h0
  | ⟨1, _⟩ => exact h1
  | ⟨2, _⟩ => exact h2

theorem gather_v256_apply {α : Type} {w : Nat} (x : S10x256.Idx → α) (idx : IVec S32x1 w)
    (b : Fin 32) (p : Fin 256) :
    Host.gather gather_S10x256_S32x1_S32x256_1_0_n_n_0_1_1256 x idx (ix2 b p) = x (ix2 (clamp9 (idx (ix2 b 0))) p) := by
  have h0 : (GatherDims.operandIdx gather_S10x256_S32x1_S32x256_1_0_n_n_0_1_1256 (ix2 b p) idx (0 : Fin 2)).val = min (idx (ix2 b 0)).toInt.toNat 9 := by
    show GatherDims.start gather_S10x256_S32x1_S32x256_1_0_n_n_0_1_1256 (ix2 b p) idx (0 : Fin 2) + GatherDims.batchCoord gather_S10x256_S32x1_S32x256_1_0_n_n_0_1_1256 (ix2 b p) (0 : Fin 2)
      + GatherDims.offCoord gather_S10x256_S32x1_S32x256_1_0_n_n_0_1_1256 (ix2 b p) (0 : Fin 2) = _
    rw [GatherDims.batchCoord_eq_zero _ _ _ (by decide), GatherDims.offCoord_eq_zero _ _ _ (by decide)]
    unfold GatherDims.start
    rw [dif_pos (show (0 : Fin 2) ∈ GatherDims.startIndexMap gather_S10x256_S32x1_S32x256_1_0_n_n_0_1_1256 by decide)]
    have hsi : GatherDims.siIdx gather_S10x256_S32x1_S32x256_1_0_n_n_0_1_1256 (ix2 b p)
        ⟨List.idxOf (0 : Fin 2) (GatherDims.startIndexMap gather_S10x256_S32x1_S32x256_1_0_n_n_0_1_1256), List.idxOf_lt_length_iff.2 (by decide)⟩ = ix2 b 0 := by
      funext c; refine Fin.ext ?_
      match c with
      | ⟨0, _⟩ => rfl
      | ⟨1, _⟩ => rfl
    rw [hsi]
    rfl
  have h1 : (GatherDims.operandIdx gather_S10x256_S32x1_S32x256_1_0_n_n_0_1_1256 (ix2 b p) idx (1 : Fin 2)).val = p.val := by
    show GatherDims.start gather_S10x256_S32x1_S32x256_1_0_n_n_0_1_1256 (ix2 b p) idx (1 : Fin 2) + GatherDims.batchCoord gather_S10x256_S32x1_S32x256_1_0_n_n_0_1_1256 (ix2 b p) (1 : Fin 2)
      + GatherDims.offCoord gather_S10x256_S32x1_S32x256_1_0_n_n_0_1_1256 (ix2 b p) (1 : Fin 2) = _
    rw [GatherDims.batchCoord_eq_zero _ _ _ (by decide)]
    unfold GatherDims.start GatherDims.offCoord
    rw [dif_neg (show (1 : Fin 2) ∉ GatherDims.startIndexMap gather_S10x256_S32x1_S32x256_1_0_n_n_0_1_1256 by decide),
      dif_pos (show (1 : Fin 2) ∈ GatherDims.sKept gather_S10x256_S32x1_S32x256_1_0_n_n_0_1_1256 by decide), Nat.add_zero, Nat.zero_add]
    rfl
  unfold Host.gather
  refine congrArg x ?_
  funext a
  refine Fin.ext ?_
  match a with
  | ⟨0, _⟩ => exact h0
  | ⟨1, _⟩ => exact h1

theorem gather_v1024_apply {α : Type} {w : Nat} (x : S10x1024.Idx → α) (idx : IVec S32x1 w)
    (b : Fin 32) (p : Fin 1024) :
    Host.gather gather_S10x1024_S32x1_S32x1024_1_0_n_n_0_1_11024 x idx (ix2 b p) = x (ix2 (clamp9 (idx (ix2 b 0))) p) := by
  have h0 : (GatherDims.operandIdx gather_S10x1024_S32x1_S32x1024_1_0_n_n_0_1_11024 (ix2 b p) idx (0 : Fin 2)).val = min (idx (ix2 b 0)).toInt.toNat 9 := by
    show GatherDims.start gather_S10x1024_S32x1_S32x1024_1_0_n_n_0_1_11024 (ix2 b p) idx (0 : Fin 2) + GatherDims.batchCoord gather_S10x1024_S32x1_S32x1024_1_0_n_n_0_1_11024 (ix2 b p) (0 : Fin 2)
      + GatherDims.offCoord gather_S10x1024_S32x1_S32x1024_1_0_n_n_0_1_11024 (ix2 b p) (0 : Fin 2) = _
    rw [GatherDims.batchCoord_eq_zero _ _ _ (by decide), GatherDims.offCoord_eq_zero _ _ _ (by decide)]
    unfold GatherDims.start
    rw [dif_pos (show (0 : Fin 2) ∈ GatherDims.startIndexMap gather_S10x1024_S32x1_S32x1024_1_0_n_n_0_1_11024 by decide)]
    have hsi : GatherDims.siIdx gather_S10x1024_S32x1_S32x1024_1_0_n_n_0_1_11024 (ix2 b p)
        ⟨List.idxOf (0 : Fin 2) (GatherDims.startIndexMap gather_S10x1024_S32x1_S32x1024_1_0_n_n_0_1_11024), List.idxOf_lt_length_iff.2 (by decide)⟩ = ix2 b 0 := by
      funext c; refine Fin.ext ?_
      match c with
      | ⟨0, _⟩ => rfl
      | ⟨1, _⟩ => rfl
    rw [hsi]
    rfl
  have h1 : (GatherDims.operandIdx gather_S10x1024_S32x1_S32x1024_1_0_n_n_0_1_11024 (ix2 b p) idx (1 : Fin 2)).val = p.val := by
    show GatherDims.start gather_S10x1024_S32x1_S32x1024_1_0_n_n_0_1_11024 (ix2 b p) idx (1 : Fin 2) + GatherDims.batchCoord gather_S10x1024_S32x1_S32x1024_1_0_n_n_0_1_11024 (ix2 b p) (1 : Fin 2)
      + GatherDims.offCoord gather_S10x1024_S32x1_S32x1024_1_0_n_n_0_1_11024 (ix2 b p) (1 : Fin 2) = _
    rw [GatherDims.batchCoord_eq_zero _ _ _ (by decide)]
    unfold GatherDims.start GatherDims.offCoord
    rw [dif_neg (show (1 : Fin 2) ∉ GatherDims.startIndexMap gather_S10x1024_S32x1_S32x1024_1_0_n_n_0_1_11024 by decide),
      dif_pos (show (1 : Fin 2) ∈ GatherDims.sKept gather_S10x1024_S32x1_S32x1024_1_0_n_n_0_1_11024 by decide), Nat.add_zero, Nat.zero_add]
    rfl
  unfold Host.gather
  refine congrArg x ?_
  funext a
  refine Fin.ext ?_
  match a with
  | ⟨0, _⟩ => exact h0
  | ⟨1, _⟩ => exact h1

/-! ## The start indices

Each gather's start-index array is select(ids < 0, ids + 10, ids) laid out as a column. An id below 10 is not negative,
so the select keeps it; read signed it is its own value, and the clamp to [0, 9] leaves it. -/

/-- A word below 10 is not below 0 as a signed word. -/
theorem slt_zero_of_lt (a : BitVec 32) (h : a.toNat < 10) : IntOp.cmpi .slt a 0#32 = 0#1 :=
  eq_zero_of_ne_one fun h1 =>
    Nat.not_lt_zero _ ((StableHlo.Predicate.slt_iff_toNat (a := a) (b := 0#32) (by omega) (by decide)).1 h1)

/-- The clamped signed reading of an id below 10 is the language it names. -/
theorem clamp_eq_langOf (t : S32.Idx → BitVec 32) (b : Fin 32) (h : (t (ix1 b)).toNat < 10) :
    clamp9 (t (ix1 b)) = Cert.Adapter.langOf t b := by
  refine Fin.ext ?_
  show min (t (ix1 b)).toInt.toNat 9 = min (t (ix1 b)).toNat 9
  rw [StableHlo.Predicate.toInt_eq_toNat_of_lt (by omega), Int.toNat_natCast]

theorem start_v5 (x1 : (⟨S32, .i32⟩ : BufTy).Contents (Elt Ideal)) (b : Fin 32) (h : (x1 (ix1 b)).toNat < 10) :
    Read.val_main_v5 (F := Ideal) x1 (ix2 b 0) = x1 (ix1 b) := by
  have e : Read.idx_main_v5 (ix2 b (0 : Fin 1)) = ix1 b := by
    funext a; match a with | ⟨0, _⟩ => rfl
  rw [Read.val_main_v5_apply, e, Read.val_main_v4_apply, Read.val_main_v1_apply, Read.val_main_v0_apply,
    Read.val_main_c_apply, slt_zero_of_lt _ h, select_zero]

theorem start_v12 (x1 : (⟨S32, .i32⟩ : BufTy).Contents (Elt Ideal)) (b : Fin 32) (h : (x1 (ix1 b)).toNat < 10) :
    Read.val_main_v12 (F := Ideal) x1 (ix2 b 0) = x1 (ix1 b) := start_v5 x1 b h
theorem start_v20 (x1 : (⟨S32, .i32⟩ : BufTy).Contents (Elt Ideal)) (b : Fin 32) (h : (x1 (ix1 b)).toNat < 10) :
    Read.val_main_v20 (F := Ideal) x1 (ix2 b 0) = x1 (ix1 b) := start_v5 x1 b h
theorem start_v32 (x1 : (⟨S32, .i32⟩ : BufTy).Contents (Elt Ideal)) (b : Fin 32) (h : (x1 (ix1 b)).toNat < 10) :
    Read.val_main_v32 (F := Ideal) x1 (ix2 b 0) = x1 (ix1 b) := start_v5 x1 b h
theorem start_v61 (x1 : (⟨S32, .i32⟩ : BufTy).Contents (Elt Ideal)) (b : Fin 32) (h : (x1 (ix1 b)).toNat < 10) :
    Read.val_main_v61 (F := Ideal) x1 (ix2 b 0) = x1 (ix1 b) := start_v5 x1 b h
theorem start_v71 (x1 : (⟨S32, .i32⟩ : BufTy).Contents (Elt Ideal)) (b : Fin 32) (h : (x1 (ix1 b)).toNat < 10) :
    Read.val_main_v71 (F := Ideal) x1 (ix2 b 0) = x1 (ix1 b) := start_v5 x1 b h

/-! ## The gathered tables and the bottleneck -/

section Stages
variable (x0 : (⟨S32x2048x1024, .f32⟩ : BufTy).Contents (Elt Ideal)) (x1 : (⟨S32, .i32⟩ : BufTy).Contents (Elt Ideal))
  (x2 : (⟨S10x1024x256, .f32⟩ : BufTy).Contents (Elt Ideal)) (x3 : (⟨S10x256, .f32⟩ : BufTy).Contents (Elt Ideal))
  (x4 : (⟨S10x256x1024, .f32⟩ : BufTy).Contents (Elt Ideal)) (x5 x6 x7 : (⟨S10x1024, .f32⟩ : BufTy).Contents (Elt Ideal))
  (hr : ∀ b : Fin 32, (x1 (ix1 b)).toNat < 10)
include hr

/-- Sample b's first weight matrix is its language's. -/
theorem v6_at (b : Fin 32) (p : Fin 1024) (q : Fin 256) :
    Read.val_main_v6 (F := Ideal) x1 x2 (ix3 b p q) = x2 (ix3 (Cert.Adapter.langOf x1 b) p q) := by
  unfold Read.val_main_v6
  rw [gather_w1_apply, start_v5 x1 b (hr b), clamp_eq_langOf x1 b (hr b)]

/-- Sample b's second weight matrix is its language's. -/
theorem v13_at (b : Fin 32) (p : Fin 256) (q : Fin 1024) :
    Read.val_main_v13 (F := Ideal) x1 x4 (ix3 b p q) = x4 (ix3 (Cert.Adapter.langOf x1 b) p q) := by
  unfold Read.val_main_v13
  rw [gather_w2_apply, start_v12 x1 b (hr b), clamp_eq_langOf x1 b (hr b)]

/-- Sample b's first bias is its language's. -/
theorem v21_at (b : Fin 32) (p : Fin 256) :
    Read.val_main_v21 (F := Ideal) x1 x3 (ix2 b p) = x3 (ix2 (Cert.Adapter.langOf x1 b) p) := by
  unfold Read.val_main_v21
  rw [gather_v256_apply, start_v20 x1 b (hr b), clamp_eq_langOf x1 b (hr b)]

/-- Sample b's second bias is its language's. -/
theorem v33_at (b : Fin 32) (p : Fin 1024) :
    Read.val_main_v33 (F := Ideal) x1 x5 (ix2 b p) = x5 (ix2 (Cert.Adapter.langOf x1 b) p) := by
  unfold Read.val_main_v33
  rw [gather_v1024_apply, start_v32 x1 b (hr b), clamp_eq_langOf x1 b (hr b)]

/-- Sample b's scale is its language's. -/
theorem v62_at (b : Fin 32) (p : Fin 1024) :
    Read.val_main_v62 (F := Ideal) x1 x6 (ix2 b p) = x6 (ix2 (Cert.Adapter.langOf x1 b) p) := by
  unfold Read.val_main_v62
  rw [gather_v1024_apply, start_v61 x1 b (hr b), clamp_eq_langOf x1 b (hr b)]

/-- Sample b's shift is its language's. -/
theorem v72_at (b : Fin 32) (p : Fin 1024) :
    Read.val_main_v72 (F := Ideal) x1 x7 (ix2 b p) = x7 (ix2 (Cert.Adapter.langOf x1 b) p) := by
  unfold Read.val_main_v72
  rw [gather_v1024_apply, start_v71 x1 b (hr b), clamp_eq_langOf x1 b (hr b)]

/-- The rectified first layer at (b, s, a) is hidden unit a of the row (b, s). -/
theorem hid_at (b : Fin 32) (s : Fin 2048) (a : Fin 256) :
    Read.val_main_v25 (F := Ideal) x0 x1 x2 x3 (ix3 b s a)
      = Cert.Adapter.hidUnit (fun k => x0 (ix3 b s k)) (fun k a => x2 (ix3 (Cert.Adapter.langOf x1 b) k a))
          (fun a => x3 (ix2 (Cert.Adapter.langOf x1 b) a)) a := by
  have e23 : Read.idx_main_v22 (Read.idx_main_v23 (ix3 b s a)) = ix2 b a := by
    funext c; match c with | ⟨0, _⟩ => rfl | ⟨1, _⟩ => rfl
  have el : ∀ k : Fin 1024, Read.lidx_main_v14 (ix3 b s a) k = ix3 b s k := fun k => by
    funext c; match c with | ⟨0, _⟩ => rfl | ⟨1, _⟩ => rfl | ⟨2, _⟩ => rfl
  have er : ∀ k : Fin 1024, Read.ridx_main_v14 (ix3 b s a) k = ix3 b k a := fun k => by
    funext c; match c with | ⟨0, _⟩ => rfl | ⟨1, _⟩ => rfl | ⟨2, _⟩ => rfl
  have hsum : (∑ k : Fin 1024, x0 (Read.lidx_main_v14 (ix3 b s a) k)
        * Read.val_main_v6 (F := Ideal) x1 x2 (Read.ridx_main_v14 (ix3 b s a) k))
      = ∑ k : Fin 1024, x0 (ix3 b s k) * x2 (ix3 (Cert.Adapter.langOf x1 b) k a) :=
    Finset.sum_congr rfl fun k _ => by rw [el k, er k, v6_at x1 x2 hr]
  rw [Read.val_main_v25_apply, Read.val_main_v24_apply, Read.val_main_call0_v0_apply, Read.val_main_call0_cst_apply,
    Read.val_main_v14_apply, Read.val_main_v23_apply, Read.val_main_v22_apply, e23, v21_at x1 x3 hr, hsum]
  rfl

end Stages

section Row
variable (x0 : (⟨S32x2048x1024, .f32⟩ : BufTy).Contents (Elt Ideal)) (x1 : (⟨S32, .i32⟩ : BufTy).Contents (Elt Ideal))
  (x2 : (⟨S10x1024x256, .f32⟩ : BufTy).Contents (Elt Ideal)) (x3 : (⟨S10x256, .f32⟩ : BufTy).Contents (Elt Ideal))
  (x4 : (⟨S10x256x1024, .f32⟩ : BufTy).Contents (Elt Ideal)) (x5 x6 x7 : (⟨S10x1024, .f32⟩ : BufTy).Contents (Elt Ideal))
  (hr : ∀ b : Fin 32, (x1 (ix1 b)).toNat < 10)
include hr

/-- The input plus the second layer at (b, s, j) is entry j of the residual row of (b, s). -/
theorem resid_at (b : Fin 32) (s : Fin 2048) (j : Fin 1024) :
    Read.val_main_v37 (F := Ideal) x0 x1 x2 x3 x4 x5 (ix3 b s j)
      = Cert.Adapter.residRow x0 (Cert.Adapter.langOf x1) x2 x3 x4 x5 b s j := by
  have e35 : Read.idx_main_v34 (Read.idx_main_v35 (ix3 b s j)) = ix2 b j := by
    funext c; match c with | ⟨0, _⟩ => rfl | ⟨1, _⟩ => rfl
  have el : ∀ k : Fin 256, Read.lidx_main_v26 (ix3 b s j) k = ix3 b s k := fun k => by
    funext c; match c with | ⟨0, _⟩ => rfl | ⟨1, _⟩ => rfl | ⟨2, _⟩ => rfl
  have er : ∀ k : Fin 256, Read.ridx_main_v26 (ix3 b s j) k = ix3 b k j := fun k => by
    funext c; match c with | ⟨0, _⟩ => rfl | ⟨1, _⟩ => rfl | ⟨2, _⟩ => rfl
  have hsum : (∑ k : Fin 256, Read.val_main_v25 (F := Ideal) x0 x1 x2 x3 (Read.lidx_main_v26 (ix3 b s j) k)
        * Read.val_main_v13 (F := Ideal) x1 x4 (Read.ridx_main_v26 (ix3 b s j) k))
      = ∑ a : Fin 256, Cert.Adapter.hidUnit (fun k => x0 (ix3 b s k)) (fun k a => x2 (ix3 (Cert.Adapter.langOf x1 b) k a))
          (fun a => x3 (ix2 (Cert.Adapter.langOf x1 b) a)) a * x4 (ix3 (Cert.Adapter.langOf x1 b) a j) :=
    Finset.sum_congr rfl fun k _ => by rw [el k, er k, hid_at x0 x1 x2 x3 hr, v13_at x1 x4 hr]
  rw [Read.val_main_v37_apply, Read.val_main_v36_apply, Read.val_main_v26_apply, Read.val_main_v35_apply,
    Read.val_main_v34_apply, e35, v33_at x1 x5 hr, hsum]
  rfl

end Row

/-! ## The two-pass normalisation -/

section Norm
variable (x0 : (⟨S32x2048x1024, .f32⟩ : BufTy).Contents (Elt Ideal)) (x1 : (⟨S32, .i32⟩ : BufTy).Contents (Elt Ideal))
  (x2 : (⟨S10x1024x256, .f32⟩ : BufTy).Contents (Elt Ideal)) (x3 : (⟨S10x256, .f32⟩ : BufTy).Contents (Elt Ideal))
  (x4 : (⟨S10x256x1024, .f32⟩ : BufTy).Contents (Elt Ideal)) (x5 x6 x7 : (⟨S10x1024, .f32⟩ : BufTy).Contents (Elt Ideal))
  (hr : ∀ b : Fin 32, (x1 (ix1 b)).toNat < 10)

/-- The mean of a row as the reference writes it: the sum from +0.0, divided by 1024. -/
def meanR (y : Fin 1024 → EReal) : EReal :=
  Ideal.div (Ideal.ofBits .f32 0x00000000#32 + ∑ k : Fin 1024, y k) (Ideal.ofBits .f32 0x44800000#32)

/-- The reciprocal standard deviation of a row as the reference writes it. -/
def rstdR (y : Fin 1024 → EReal) : EReal :=
  Ideal.rsqrt (Ideal.div (Ideal.ofBits .f32 0x00000000#32 + ∑ k : Fin 1024, (y k - meanR y) * (y k - meanR y))
      (Ideal.ofBits .f32 0x44800000#32)
    + Ideal.ofBits .f32 0x3727C5AC#32)

/-- The two-pass normalisation in terms of the row's mean and reciprocal standard deviation. -/
theorem lnR_eq (y g bt : Fin 1024 → EReal) (j : Fin 1024) :
    Cert.Adapter.lnR y g bt j = ((y j - meanR y) * rstdR y) * g j + bt j := rfl

include hr

/-- The mean of the row (b, s), held at (b, s, 0). -/
theorem mean_at (b : Fin 32) (s : Fin 2048) :
    Read.val_main_v41 (F := Ideal) x0 x1 x2 x3 x4 x5 (ix3 b s (0 : Fin 1))
      = meanR (Cert.Adapter.residRow x0 (Cert.Adapter.langOf x1) x2 x3 x4 x5 b s) := by
  have e39 : Read.idx_main_v39 (ix3 b s (0 : Fin 1)) = ix2 b s := by
    funext c; match c with | ⟨0, _⟩ => rfl | ⟨1, _⟩ => rfl
  have e38 : ∀ k : Fin 1024, Read.idx_main_v38 (ix2 b s) k = ix3 b s k := fun k => by
    funext c; match c with | ⟨0, _⟩ => rfl | ⟨1, _⟩ => rfl | ⟨2, _⟩ => rfl
  have hsum : (∑ k : Fin 1024, Read.val_main_v37 (F := Ideal) x0 x1 x2 x3 x4 x5 (Read.idx_main_v38 (ix2 b s) k))
      = ∑ k : Fin 1024, Cert.Adapter.residRow x0 (Cert.Adapter.langOf x1) x2 x3 x4 x5 b s k :=
    Finset.sum_congr rfl fun k _ => by rw [e38 k, resid_at x0 x1 x2 x3 x4 x5 hr]
  rw [Read.val_main_v41_apply, Read.val_main_v39_apply, e39, Read.val_main_v38_apply, hsum, Read.val_main_v40_apply,
    Read.val_main_cst_7_apply, Read.val_main_cst_apply]
  rfl

/-- The deviation from the mean at (b, s, j), as the variance pass reads it. -/
theorem dev43_at (b : Fin 32) (s : Fin 2048) (j : Fin 1024) :
    Read.val_main_v43 (F := Ideal) x0 x1 x2 x3 x4 x5 (ix3 b s j)
      = Cert.Adapter.residRow x0 (Cert.Adapter.langOf x1) x2 x3 x4 x5 b s j
        - meanR (Cert.Adapter.residRow x0 (Cert.Adapter.langOf x1) x2 x3 x4 x5 b s) := by
  have e42 : Read.idx_main_v42 (ix3 b s j) = ix3 b s (0 : Fin 1) := by
    funext c; match c with | ⟨0, _⟩ => rfl | ⟨1, _⟩ => rfl | ⟨2, _⟩ => rfl
  rw [Read.val_main_v43_apply, Read.val_main_v42_apply, e42, mean_at x0 x1 x2 x3 x4 x5 hr,
    resid_at x0 x1 x2 x3 x4 x5 hr]
  rfl

/-- The deviation from the mean at (b, s, j), as the output reads it. -/
theorem dev50_at (b : Fin 32) (s : Fin 2048) (j : Fin 1024) :
    Read.val_main_v50 (F := Ideal) x0 x1 x2 x3 x4 x5 (ix3 b s j)
      = Cert.Adapter.residRow x0 (Cert.Adapter.langOf x1) x2 x3 x4 x5 b s j
        - meanR (Cert.Adapter.residRow x0 (Cert.Adapter.langOf x1) x2 x3 x4 x5 b s) := by
  have e49 : Read.idx_main_v49 (ix3 b s j) = ix3 b s (0 : Fin 1) := by
    funext c; match c with | ⟨0, _⟩ => rfl | ⟨1, _⟩ => rfl | ⟨2, _⟩ => rfl
  rw [Read.val_main_v50_apply, Read.val_main_v49_apply, e49, mean_at x0 x1 x2 x3 x4 x5 hr,
    resid_at x0 x1 x2 x3 x4 x5 hr]
  rfl

/-- The reciprocal standard deviation of the row (b, s), held at (b, s, 0). -/
theorem rstd_at (b : Fin 32) (s : Fin 2048) :
    Read.val_main_v53 (F := Ideal) x0 x1 x2 x3 x4 x5 (ix3 b s (0 : Fin 1))
      = rstdR (Cert.Adapter.residRow x0 (Cert.Adapter.langOf x1) x2 x3 x4 x5 b s) := by
  have e46 : Read.idx_main_v46 (ix3 b s (0 : Fin 1)) = ix2 b s := by
    funext c; match c with | ⟨0, _⟩ => rfl | ⟨1, _⟩ => rfl
  have e45 : ∀ k : Fin 1024, Read.idx_main_v45 (ix2 b s) k = ix3 b s k := fun k => by
    funext c; match c with | ⟨0, _⟩ => rfl | ⟨1, _⟩ => rfl | ⟨2, _⟩ => rfl
  have hsum : (∑ k : Fin 1024, Read.val_main_v44 (F := Ideal) x0 x1 x2 x3 x4 x5 (Read.idx_main_v45 (ix2 b s) k))
      = ∑ k : Fin 1024,
          (Cert.Adapter.residRow x0 (Cert.Adapter.langOf x1) x2 x3 x4 x5 b s k
            - meanR (Cert.Adapter.residRow x0 (Cert.Adapter.langOf x1) x2 x3 x4 x5 b s))
          * (Cert.Adapter.residRow x0 (Cert.Adapter.langOf x1) x2 x3 x4 x5 b s k
            - meanR (Cert.Adapter.residRow x0 (Cert.Adapter.langOf x1) x2 x3 x4 x5 b s)) :=
    Finset.sum_congr rfl fun k _ => by
      rw [e45 k, Read.val_main_v44_apply, dev43_at x0 x1 x2 x3 x4 x5 hr]; rfl
  rw [Read.val_main_v53_apply, Read.val_main_v52_apply, Read.val_main_v48_apply, Read.val_main_v46_apply, e46,
    Read.val_main_v45_apply, hsum, Read.val_main_v47_apply, Read.val_main_cst_9_apply, Read.val_main_cst_8_apply,
    Read.val_main_v51_apply, Read.val_main_cst_10_apply]
  rfl

/-- The last stage at (b, s, j) is the two-pass specification there. -/
theorem out_at (b : Fin 32) (s : Fin 2048) (j : Fin 1024) :
    Read.val_main_v75 (F := Ideal) x0 x1 x2 x3 x4 x5 x6 x7 (ix3 b s j)
      = Cert.Adapter.outAt Cert.Adapter.lnR x0 (Cert.Adapter.langOf x1) x2 x3 x4 x5 x6 x7 b s j := by
  have e54 : Read.idx_main_v54 (ix3 b s j) = ix3 b s (0 : Fin 1) := by
    funext c; match c with | ⟨0, _⟩ => rfl | ⟨1, _⟩ => rfl | ⟨2, _⟩ => rfl
  have e64 : Read.idx_main_v63 (Read.idx_main_v64 (ix3 b s j)) = ix2 b j := by
    funext c; match c with | ⟨0, _⟩ => rfl | ⟨1, _⟩ => rfl
  have e74 : Read.idx_main_v73 (Read.idx_main_v74 (ix3 b s j)) = ix2 b j := by
    funext c; match c with | ⟨0, _⟩ => rfl | ⟨1, _⟩ => rfl
  unfold Cert.Adapter.outAt
  rw [lnR_eq, Read.val_main_v75_apply, Read.val_main_v65_apply, Read.val_main_v55_apply, dev50_at x0 x1 x2 x3 x4 x5 hr,
    Read.val_main_v54_apply, e54, rstd_at x0 x1 x2 x3 x4 x5 hr, Read.val_main_v64_apply, Read.val_main_v63_apply, e64,
    v62_at x1 x6 hr, Read.val_main_v74_apply, Read.val_main_v73_apply, e74, v72_at x1 x7 hr]
  rfl

end Norm

/-- With every id in [0, 10) the reference's result array is the two-pass specification of its arguments. -/
theorem res_eq (m : (ℓ : Loc nD τ sig) → Buf (Elt Ideal) ℓ) (c : Dev nD)
    (hr : ∀ b : Fin 32, (m ((c.tc : Thread nD τ).loc main_arg1) (ix1 b)).toNat < 10) :
    Cert.ReferenceIdeal.Value.res_out0 (F := Ideal) m c
      = Cert.Adapter.outArr Cert.Adapter.lnR (m ((c.tc : Thread nD τ).loc main_arg0))
          (Cert.Adapter.langOf (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  funext i
  obtain ⟨b, s, j, rfl⟩ : ∃ b s j, i = ix3 b s j := ⟨_, _, _, eq_ix3 i⟩
  show Cert.ReferenceIdeal.Value.res_main_v75 m c (ix3 b s j) = _
  rw [Read.val_main_v75_eq]
  exact out_at _ _ _ _ _ _ _ _ hr b s j

end Cert.ReferenceIdeal.RefValue

end
-- ==== Proof.lean ====
/-
  A per-sample language adapter: for sample b with language l = ids[b] (one of ten), the rows x of the hidden states
  pass through a bottleneck, h = max (x · W1[l] + b1[l], 0), y = x + (h · W2[l] + b2[l]), and each row of y is
  normalised over its 1024 entries, scaled by gamma[l] and shifted by beta[l].

  The kernel reads the ids through a table clamped to [0, 9] and visits a 32 × 2 grid of (sample, half of the rows);
  the reference gathers each sample's parameters (a negative id counts from the end, then the gather clamps). The two
  agree on which language a sample uses exactly when the id is in [0, 10): that is the precondition's last conjunct,
  and under it the table holds the ids themselves, so every table-indexed block lies inside its array (the frames).

  At the ideal instance both programs then compute the same residual rows (the kernel's two format changes are the
  identity; a matrix product into a zero accumulator and a batched product are the same sums), and they differ only in
  how a row is normalised: mean and mean of squares by the factor 2⁻¹⁰ with var = E[y²] − mean², against mean and mean
  of squared deviations by the quotient by 1024. With every float input finite the residual rows are real, and on
  real rows the two normalisations are one function.
-/
import proofs.«407231_j15006615733345_3_alg».proof.Defs
import proofs.«407231_j15006615733345_3_alg».proof.Proof.Gen.Kernel
import proofs.«407231_j15006615733345_3_alg».proof.Proof.Gen.Kernel.Skeleton
import proofs.«407231_j15006615733345_3_alg».proof.Proof.Gen.Kernel.Launch
import proofs.«407231_j15006615733345_3_alg».proof.Proof.Gen.Kernel.Points
import proofs.«407231_j15006615733345_3_alg».proof.Proof.Gen.Kernel.Frame
import proofs.«407231_j15006615733345_3_alg».proof.Proof.Gen.KernelIdeal
import proofs.«407231_j15006615733345_3_alg».proof.Proof.Gen.KernelIdeal.Skeleton
import proofs.«407231_j15006615733345_3_alg».proof.Proof.Gen.KernelIdeal.Launch
import proofs.«407231_j15006615733345_3_alg».proof.Proof.Gen.KernelIdeal.Points
import proofs.«407231_j15006615733345_3_alg».proof.Proof.Gen.KernelIdeal.Frame
import proofs.«407231_j15006615733345_3_alg».proof.Proof.Gen.ReferenceIdeal
import proofs.«407231_j15006615733345_3_alg».proof.Proof.Gen.Pre_finite_inputs
import proofs.«407231_j15006615733345_3_alg».proof.Proof.Gen.ReferenceIdeal.Run
import proofs.«407231_j15006615733345_3_alg».proof.Proof.Gen.ReferenceIdeal.Read
import proofs.«407231_j15006615733345_3_alg».proof.Proof.Spec
import proofs.«407231_j15006615733345_3_alg».proof.Proof.PreFacts
import proofs.«407231_j15006615733345_3_alg».proof.Proof.OkKernel
import proofs.«407231_j15006615733345_3_alg».proof.Proof.OkKernelIdeal
import proofs.«407231_j15006615733345_3_alg».proof.Proof.KFinal
import proofs.«407231_j15006615733345_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- Under the precondition every id of the word-level program's launch memory is in [0, 10). -/
theorem range_Kernel (m : (ℓ : Loc Cert.Kernel.nD Cert.Kernel.τ Cert.Kernel.sig) → Buf (Elt Bits) ℓ) (h : Cert.Pre_Kernel m) (b : Fin 32) :
    (m (((0 : Dev Cert.Kernel.nD) : Thread Cert.Kernel.nD Cert.Kernel.τ).loc Cert.Kernel.main_arg1) (ix1 b)).toNat < 10 :=
  Cert.Adapter.PreFacts.ids_lt _ _ _ _ _ _ _ _ (h 0) b

/-- The same at the ideal instance. -/
theorem range_KernelIdeal (m : (ℓ : Loc Cert.KernelIdeal.nD Cert.KernelIdeal.τ Cert.KernelIdeal.sig) → Buf (Elt Ideal) ℓ) (h : Cert.Pre_KernelIdeal m) (b : Fin 32) :
    (m (((0 : Dev Cert.KernelIdeal.nD) : Thread Cert.KernelIdeal.nD Cert.KernelIdeal.τ).loc Cert.KernelIdeal.main_arg1) (ix1 b)).toNat < 10 :=
  Cert.Adapter.PreFacts.ids_lt _ _ _ _ _ _ _ _ (h 0) b

theorem frame_k : Cert.frame_Kernel := fun m ρ h =>
  Cert.Kernel.Gen.frame m ρ (Cert.Kernel.OkOfPre.ok_of_range m (range_Kernel m h))

theorem frame_ki : Cert.frame_KernelIdeal := fun m ρ h =>
  Cert.KernelIdeal.Gen.frame m ρ (Cert.KernelIdeal.OkOfPre.ok_of_range m (range_KernelIdeal m h))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- In range the table names, for every sample, the language its id names. -/
theorem lang_eq (m : (ℓ : Loc Cert.KernelIdeal.nD Cert.KernelIdeal.τ Cert.KernelIdeal.sig) → Buf (Elt Ideal) ℓ)
    (hr : ∀ b : Fin 32, (m (((0 : Dev Cert.KernelIdeal.nD) : Thread Cert.KernelIdeal.nD Cert.KernelIdeal.τ).loc Cert.KernelIdeal.main_arg1) (ix1 b)).toNat < 10) :
    Cert.Adapter.langOf (Cert.KernelIdeal.Gen.tbl m 0) = Cert.Adapter.langOf (m (((0 : Dev Cert.KernelIdeal.nD) : Thread Cert.KernelIdeal.nD Cert.KernelIdeal.τ).loc Cert.KernelIdeal.main_arg1)) := by
  funext b
  refine Fin.ext ?_
  show min (Cert.KernelIdeal.Gen.tbl m 0 (ix1 b)).toNat 9 = min (m (((0 : Dev Cert.KernelIdeal.nD) : Thread Cert.KernelIdeal.nD Cert.KernelIdeal.τ).loc Cert.KernelIdeal.main_arg1) (ix1 b)).toNat 9
  rw [Cert.KernelIdeal.OkOfPre.tbl_apply m hr b]

theorem algebraic : Cert.algebraic_KernelIdeal_ReferenceIdeal := by
  intro m ρ m' ρ' hpre hagree
  have hr := range_KernelIdeal m hpre
  have hO : Cert.KernelIdeal.Gen.Ok m := Cert.KernelIdeal.OkOfPre.ok_of_range m hr
  obtain ⟨r0, r2, r3, r4, r5, r6, r7⟩ := Cert.Adapter.PreFacts.reals _ _ _ _ _ _ _ _ (hpre 0)
  refine ⟨fun c => Cert.KernelIdeal.KValue.result m c, Cert.KernelIdeal.KValue.run m ρ hO, ?_⟩
  refine (θ_run Cert.ReferenceIdeal.defs _ _).mono (fun _ h c => ⟨(h c).1.trans ?_, (h c).2⟩) (Cert.ReferenceIdeal.Value.run (F := Ideal) m' ρ')
  obtain rfl : c = 0 := Subsingleton.elim _ _
  obtain ⟨a0, a1, a2, a3, a4, a5, a6, a7⟩ := hagree 0
  have hr' : ∀ b : Fin 32, (m' (((0 : Dev Cert.ReferenceIdeal.nD).tc : Thread Cert.ReferenceIdeal.nD Cert.ReferenceIdeal.τ).loc Cert.ReferenceIdeal.main_arg1) (ix1 b)).toNat < 10 := by
    intro b; rw [a1]; exact hr b
  refine (Cert.ReferenceIdeal.RefValue.res_eq m' 0 hr').trans ?_
  rw [a0, a1, a2, a3, a4, a5, a6, a7]
  unfold Cert.KernelIdeal.KValue.result
  rw [lang_eq m hr]
  exact (Cert.Adapter.outArr_lnK_eq_lnR _ _ _ _ _ _ _ _ r0 r2 r3 r4 r5).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
